-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S_ : Shape := ⟨0, ![]⟩
abbrev S1x1600000 : Shape := ⟨2, ![1, 1600000]⟩
abbrev S1600000 : Shape := ⟨1, ![1600000]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_arg1 : IVec S2x1600000 32) (main_v13 : IVec S_ 1) (main_v15 : IVec S1600000 32) (main_v16 : IVec S1600000 32) : IVec S_ 1 :=
  let main_v17 : IVec S1600000 1 := cmpi .sge main_v15 main_v16
  let main_v18 : IVec S1x1600000 32 := (extractStridedSlice S1x1600000 ![0, 0] · slices_S2x1600000_S1x1600000_0_0) main_arg1
  let main_v19 : IVec S1600000 32 := shapeCast S1600000 main_v18 shapeCasts_S1x1600000_S1600000
  let main_c_5 : IVec S_ 32 := constantI S_ 32 100000#32
  let main_v20 : IVec S1600000 32 := broadcastInDim S1600000 ![] bcast_S_S1600000 main_c_5
  let main_v21 : IVec S1600000 1 := cmpi .slt main_v19 main_v20
  let main_v22 : IVec S1600000 1 := andi main_v17 main_v21
  let main_c_6 : IVec S_ 1 := constantI S_ 1 1#1
  let main_v23 : IVec S_ 1 := (fun x v => Host.reduce IntOp.andi x v reducesTo_S1600000_S_d0 h_S_) main_v22 main_c_6
  let main_v24 : IVec S_ 1 := andi main_v13 main_v23
  main_v24

def fn {F : FTy → Type} [FloatOps F] (main_arg0 : FVec F S100000x256 .f32) (main_arg1 : IVec S2x1600000 32) (main_arg2 : FVec F S256x128 .f32) (main_arg3 : FVec F S128 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : IVec S1x1600000 32 := (extractStridedSlice S1x1600000 ![0, 0] · slices_S2x1600000_S1x1600000_0_0) main_arg1
  let main_v15 : IVec S1600000 32 := shapeCast S1600000 main_v14 shapeCasts_S1x1600000_S1600000
  let main_c_4 : IVec S_ 32 := constantI S_ 32 0#32
  let main_v16 : IVec S1600000 32 := broadcastInDim S1600000 ![] bcast_S_S1600000 main_c_4
  fn_part1 (F := F) main_arg1 main_v13 main_v15 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S3936 : Shape := ⟨1, ![3936]⟩
abbrev S1703936 : Shape := ⟨1, ![1703936]⟩
abbrev S100000x128 : Shape := ⟨2, ![100000, 128]⟩
abbrev S5000x256 : Shape := ⟨2, ![5000, 256]⟩
abbrev S5000x128 : Shape := ⟨2, ![5000, 128]⟩
abbrev S1703936x1 : Shape := ⟨2, ![1703936, 1]⟩
abbrev S1 : Shape := ⟨1, ![1]⟩
abbrev S1x1 : Shape := ⟨2, ![1, 1]⟩
abbrev S1703936x128 : Shape := ⟨2, ![1703936, 128]⟩
abbrev S8192x128 : Shape := ⟨2, ![8192, 128]⟩
abbrev S8192x1 : Shape := ⟨2, ![8192, 1]⟩
abbrev S1x128 : Shape := ⟨2, ![1, 128]⟩

abbrev nBuf : Space → Nat
  | .hbm => 85
  | .vmem => 16
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S_, .i32⟩
  | .hbm, ⟨45, _⟩ => ⟨S3936, .i32⟩
  | .hbm, ⟨46, _⟩ => ⟨S1703936, .i32⟩
  | .hbm, ⟨47, _⟩ => ⟨S_, .i32⟩
  | .hbm, ⟨48, _⟩ => ⟨S3936, .i32⟩
  | .hbm, ⟨49, _⟩ => ⟨S1703936, .i32⟩
  | .hbm, ⟨50, _⟩ => ⟨S_, .f32⟩
  | .hbm, ⟨51, _⟩ => ⟨S3936, .f32⟩
  | .hbm, ⟨52, _⟩ => ⟨S1703936, .f32⟩
  | .hbm, ⟨53, _⟩ => ⟨S100000x128, .f32⟩
  | .hbm, ⟨54, _⟩ => ⟨S_, .i32⟩
  | .hbm, ⟨55, _⟩ => ⟨S1703936, .i32⟩
  | .hbm, ⟨56, _⟩ => ⟨S1703936, .i1⟩
  | .hbm, ⟨57, _⟩ => ⟨S_, .i32⟩
  | .hbm, ⟨58, _⟩ => ⟨S1703936, .i32⟩
  | .hbm, ⟨59, _⟩ => ⟨S1703936, .i32⟩
  | .hbm, ⟨60, _⟩ => ⟨S1703936, .i32⟩
  | .hbm, ⟨61, _⟩ => ⟨S1703936x1, .i32⟩
  | .hbm, ⟨62, _⟩ => ⟨S1, .i32⟩
  | .hbm, ⟨63, _⟩ => ⟨S_, .i32⟩
  | .hbm, ⟨64, _⟩ => ⟨S1703936x1, .i32⟩
  | .hbm, ⟨65, _⟩ => ⟨S1703936x1, .i1⟩
  | .hbm, ⟨66, _⟩ => ⟨S1x1, .i32⟩
  | .hbm, ⟨67, _⟩ => ⟨S1703936x1, .i32⟩
  | .hbm, ⟨68, _⟩ => ⟨S1703936x1, .i1⟩
  | .hbm, ⟨69, _⟩ => ⟨S1703936x1, .i1⟩
  | .hbm, ⟨70, _⟩ => ⟨S_, .i1⟩
  | .hbm, ⟨71, _⟩ => ⟨S1703936, .i1⟩
  | .hbm, ⟨72, _⟩ => ⟨S1703936x128, .f32⟩
  | .hbm, ⟨73, _⟩ => ⟨S1703936x128, .i1⟩
  | .hbm, ⟨74, _⟩ => ⟨S_, .f32⟩
  | .hbm, ⟨75, _⟩ => ⟨S1703936x128, .f32⟩
  | .hbm, ⟨76, _⟩ => ⟨S1703936x128, .f32⟩
  | .hbm, ⟨77, _⟩ => ⟨S1703936x1, .f32⟩
  | .hbm, ⟨78, _⟩ => ⟨S1703936x128, .f32⟩
  | .hbm, ⟨79, _⟩ => ⟨S_, .f32⟩
  | .hbm, ⟨80, _⟩ => ⟨S100000x128, .f32⟩
  | .hbm, ⟨81, _⟩ => ⟨S1703936x1, .i32⟩
  | .hbm, ⟨82, _⟩ => ⟨S100000x128, .f32⟩
  | .hbm, ⟨83, _⟩ => ⟨S1x128, .f32⟩
  | .hbm, ⟨84, _⟩ => ⟨S100000x128, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S8192x128, .f32⟩
  | .local _ .vmem, ⟨6, _⟩ => ⟨S8192x128, .f32⟩
  | .local _ .vmem, ⟨7, _⟩ => ⟨S8192x1, .f32⟩
  | .local _ .vmem, ⟨8, _⟩ => ⟨S8192x1, .f32⟩
  | .local _ .vmem, ⟨9, _⟩ => ⟨S8192x128, .f32⟩
  | .local _ .vmem, ⟨10, _⟩ => ⟨S8192x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_6 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_cst_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_call1_c : Ref sig .tc := ⟨.hbm, 54, rfl⟩
abbrev main_call1_v0 : Ref sig .tc := ⟨.hbm, 55, rfl⟩
abbrev main_call1_v1 : Ref sig .tc := ⟨.hbm, 56, rfl⟩
abbrev main_call1_c_0 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_v5 : Ref sig .tc := ⟨.hbm, 61, rfl⟩
abbrev main_call1_c_1 : Ref sig .tc := ⟨.hbm, 62, rfl⟩
abbrev main_call1_c_2 : Ref sig .tc := ⟨.hbm, 63, rfl⟩
abbrev main_call1_v6 : Ref sig .tc := ⟨.hbm, 64, rfl⟩
abbrev main_call1_v7 : Ref sig .tc := ⟨.hbm, 65, rfl⟩
abbrev main_call1_v8 : Ref sig .tc := ⟨.hbm, 66, rfl⟩
abbrev main_call1_v9 : Ref sig .tc := ⟨.hbm, 67, rfl⟩
abbrev main_call1_v10 : Ref sig .tc := ⟨.hbm, 68, rfl⟩
abbrev main_call1_v11 : Ref sig .tc := ⟨.hbm, 69, rfl⟩
abbrev main_call1_c_3 : Ref sig .tc := ⟨.hbm, 70, rfl⟩
abbrev main_call1_v12 : Ref sig .tc := ⟨.hbm, 71, rfl⟩
abbrev main_call1_v13 : Ref sig .tc := ⟨.hbm, 72, rfl⟩
abbrev main_call1_v14 : Ref sig .tc := ⟨.hbm, 73, rfl⟩
abbrev main_call1_cst : Ref sig .tc := ⟨.hbm, 74, rfl⟩
abbrev main_call1_v15 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_cst_9 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![208], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S3936 : S_.BroadcastsInDim S3936 (![] : Fin 0 → Fin S3936.rank)
  concatenates_S1700000_S3936_S1703936_d0 : Shape.Concatenates [S1700000, S3936] S1703936 0
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S_S1703936 : S_.BroadcastsInDim S1703936 (![] : Fin 0 → Fin S1703936.rank)
  bcast_S1703936_S1703936x1_0 : S1703936.BroadcastsInDim S1703936x1 (![0] : Fin 1 → Fin S1703936x1.rank)
  bcast_S_S1703936x1 : S_.BroadcastsInDim S1703936x1 (![] : Fin 0 → Fin S1703936x1.rank)
  bcast_S1_S1x1_1 : S1.BroadcastsInDim S1x1 (![1] : Fin 1 → Fin S1x1.rank)
  bcast_S1x1_S1703936x1_0_1 : S1x1.BroadcastsInDim S1703936x1 (![0, 1] : Fin 2 → Fin S1703936x1.rank)
  reducesTo_S1703936x1_S1703936_d1 : S1703936x1.ReducesTo [1] S1703936
  h_S_ : 0 < S_.numel
  bcast_S1703936_S1703936x128_0 : S1703936.BroadcastsInDim S1703936x128 (![0] : Fin 1 → Fin S1703936x128.rank)
  bcast_S_S1703936x128 : S_.BroadcastsInDim S1703936x128 (![] : Fin 0 → Fin S1703936x128.rank)
  shapeCasts_S1703936_S1703936x1 : S1703936.ShapeCasts S1703936x1
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  broadcasts_S8192x1_S8192x128 : S8192x1.Broadcasts S8192x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  bcast_S_S100000x128 : S_.BroadcastsInDim S100000x128 (![] : Fin 0 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S5000x128_S5000x128 : S5000x128.ShapeCasts S5000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x256_S256x128_S5000x128_1_0_0_1_n_n_wf : DotDims.WF S5000x256 S256x128 S5000x128 [1] [0] [0] [1] [] []
  gather_S100000x128_S1703936x1_S1703936x128_1_0_n_n_0_1_1128_wf : GatherDims.WF S100000x128 S1703936x1 S1703936x128 [1] [0] [] [0] [] 1 ![1, 128]
  scatter_S100000x128_S1703936x1_S1703936x128_1_0_0_1_wf : ScatterDims.WF S100000x128 S1703936x1 S1703936x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S100000x256.size a
  hwx0_0 : ∀ i : grid0.Coords, EltTy.bits .f32 = 32 ∨ (Rect.block (s := S100000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x128.size a ≤ S1703936x128.size a
  hwx1_0 : ∀ i : grid1.Coords, EltTy.bits .f32 = 32 ∨ (Rect.block (s := S1703936x128) S8192x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x1.size a ≤ S1703936x1.size a
  hwx1_1 : ∀ i : grid1.Coords, EltTy.bits .f32 = 32 ∨ (Rect.block (s := S1703936x1) S8192x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x128.size a ≤ S1703936x128.size a
  hwx1_2 : ∀ i : grid1.Coords, EltTy.bits .f32 = 32 ∨ (Rect.block (s := S1703936x128) S8192x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S100000x128_S1703936x1_S1703936x128_1_0_n_n_0_1_1128 : GatherDims S100000x128 S1703936x1 S1703936x128 where
  offsetDims := [1]
  collapsedSliceDims := [0]
  operandBatchingDims := []
  startIndicesBatchingDims := []
  startIndexMap := [0]
  indexVectorDim := 1
  sliceSizes := ![1, 128]
  wf := gather_S100000x128_S1703936x1_S1703936x128_1_0_n_n_0_1_1128_wf
def scatter_S100000x128_S1703936x1_S1703936x128_1_0_0_1 : ScatterDims S100000x128 S1703936x1 S1703936x128 where
  updateWindowDims := [1]
  insertedWindowDims := [0]
  scatterDimsToOperandDims := [0]
  indexVectorDim := 1
  wf := scatter_S100000x128_S1703936x1_S1703936x128_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v37) S8192x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S8192x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v39) S8192x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v42) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩

abbrev nBuf : Space → Nat
  | .hbm => 67
  | .vmem => 0
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S100000, .i32⟩
  | .hbm, ⟨5, _⟩ => ⟨S1x1600000, .i32⟩
  | .hbm, ⟨6, _⟩ => ⟨S1600000, .i32⟩
  | .hbm, ⟨7, _⟩ => ⟨S1700000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S_, .f32⟩
  | .hbm, ⟨12, _⟩ => ⟨S1700000, .f32⟩
  | .hbm, ⟨13, _⟩ => ⟨S_, .f32⟩
  | .hbm, ⟨14, _⟩ => ⟨S100000, .f32⟩
  | .hbm, ⟨15, _⟩ => ⟨S1700000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1700000, .i32⟩
  | .hbm, ⟨27, _⟩ => ⟨S1700000, .i1⟩
  | .hbm, ⟨28, _⟩ => ⟨S_, .i32⟩
  | .hbm, ⟨29, _⟩ => ⟨S1700000, .i32⟩
  | .hbm, ⟨30, _⟩ => ⟨S1700000, .i32⟩
  | .hbm, ⟨31, _⟩ => ⟨S1700000, .i32⟩
  | .hbm, ⟨32, _⟩ => ⟨S1700000x1, .i32⟩
  | .hbm, ⟨33, _⟩ => ⟨S1700000, .f32⟩
  | .hbm, ⟨34, _⟩ => ⟨S_, .i32⟩
  | .hbm, ⟨35, _⟩ => ⟨S1700000, .i32⟩
  | .hbm, ⟨36, _⟩ => ⟨S1700000, .i1⟩
  | .hbm, ⟨37, _⟩ => ⟨S_, .i32⟩
  | .hbm, ⟨38, _⟩ => ⟨S1700000, .i32⟩
  | .hbm, ⟨39, _⟩ => ⟨S1700000, .i32⟩
  | .hbm, ⟨40, _⟩ => ⟨S1700000, .i32⟩
  | .hbm, ⟨41, _⟩ => ⟨S1700000x1, .i32⟩
  | .hbm, ⟨42, _⟩ => ⟨S1700000, .f32⟩
  | .hbm, ⟨43, _⟩ => ⟨S1700000, .f32⟩
  | .hbm, ⟨44, _⟩ => ⟨S100000x128, .f32⟩
  | .hbm, ⟨45, _⟩ => ⟨S_, .i32⟩
  | .hbm, ⟨46, _⟩ => ⟨S1700000, .i32⟩
  | .hbm, ⟨47, _⟩ => ⟨S1700000, .i1⟩
  | .hbm, ⟨48, _⟩ => ⟨S_, .i32⟩
  | .hbm, ⟨49, _⟩ => ⟨S1700000, .i32⟩
  | .hbm, ⟨50, _⟩ => ⟨S1700000, .i32⟩
  | .hbm, ⟨51, _⟩ => ⟨S1700000, .i32⟩
  | .hbm, ⟨52, _⟩ => ⟨S1700000x1, .i32⟩
  | .hbm, ⟨53, _⟩ => ⟨S1700000x128, .f32⟩
  | .hbm, ⟨54, _⟩ => ⟨S1700000x1, .f32⟩
  | .hbm, ⟨55, _⟩ => ⟨S1700000x128, .f32⟩
  | .hbm, ⟨56, _⟩ => ⟨S1700000x128, .f32⟩
  | .hbm, ⟨57, _⟩ => ⟨S_, .f32⟩
  | .hbm, ⟨58, _⟩ => ⟨S100000x128, .f32⟩
  | .hbm, ⟨59, _⟩ => ⟨S1700000x1, .i32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S_, .f32⟩
  | .hbm, ⟨65, _⟩ => ⟨S100000x128, .f32⟩
  | .hbm, ⟨66, _⟩ => ⟨S100000x128, .f32⟩
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_6 : Ref sig .tc := ⟨.hbm, 45, rfl⟩
abbrev main_v31 : Ref sig .tc := ⟨.hbm, 46, rfl⟩
abbrev main_v32 : Ref sig .tc := ⟨.hbm, 47, rfl⟩
abbrev main_c_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_call1_cst : Ref sig .tc := ⟨.hbm, 64, rfl⟩
abbrev main_call1_v0 : Ref sig .tc := ⟨.hbm, 65, rfl⟩
abbrev main_v47 : Ref sig .tc := ⟨.hbm, 66, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KernelStages.lean ====
/- The host arithmetic of the kernel's program around its three launches, stage by stage, as functions of the edge
   array: sources and destinations with the self loops appended, the in-degrees, deg^(-1/2), the symmetric
   normalisation of every edge, the zero padding of the edge-indexed vectors to a whole number of blocks, the gather of
   table rows at the padded sources (a row is replaced by a fill word when its index is not a row of the table), and
   the sum of the messages into their destination rows. -/
import proofs.«428719_j6828998001543_1_alg».proof.Proof.Gen.KernelIdeal

noncomputable section

namespace Cert.KernelIdeal.Stages

open Idealize.ShloMosaic
open Cert.KernelIdeal Cert.KernelIdeal.Gen

section Stages
variable {F : FTy → Type} [FloatOps F]

/-- One row of the edge array followed by the self loops 0 … 99999. -/
def withLoops (r : IVec S1600000 32) : IVec S1700000 32 :=
  concatenate S1700000 0 [⟨S1600000, r⟩, ⟨S100000, iotaInDim S100000 32 0⟩] concatenates_S1600000_S100000_S1700000_d0

/-- The sources: row 0 of the edge array, then the self loops. -/
def srcV (e : IVec S2x1600000 32) : IVec S1700000 32 :=
  withLoops (shapeCast _ (extractStridedSlice S1x1600000 ![0, 0] e slices_S2x1600000_S1x1600000_0_0) shapeCasts_S1x1600000_S1600000)

/-- The destinations: row 1 of the edge array, then the self loops. -/
def dstV (e : IVec S2x1600000 32) : IVec S1700000 32 :=
  withLoops (shapeCast _ (extractStridedSlice S1x1600000 ![1, 0] e slices_S2x1600000_S1x1600000_1_0) shapeCasts_S1x1600000_S1600000)

/-- Python's wrap of a negative index: v + 100000 where v < 0, else v. -/
def wrapV (v : IVec S1700000 32) : IVec S1700000 32 :=
  select (cmpi .slt v (broadcastInDim S1700000 ![] bcast_S_S1700000 (constantI S_ 32 0#32)))
    (addi v (broadcastInDim S1700000 ![] bcast_S_S1700000 (constantI S_ 32 100000#32))) v

/-- The in-degree of every node (self loop counted): a scatter of ones by destination. -/
def degV (e : IVec S2x1600000 32) : FVec F S100000 .f32 :=
  Host.scatterAdd scatter_S100000_S1700000x1_S1700000_n_0_0_1
    (broadcastInDim S100000 ![] bcast_S_S100000 (constant S_ .f32 0x00000000#32))
    (broadcastInDim S1700000x1 ![0] bcast_S1700000_S1700000x1_0 (dstV e))
    (broadcastInDim S1700000 ![] bcast_S_S1700000 (constant S_ .f32 0x3F800000#32))

/-- deg^(-1/2) where deg > 0, else 0. -/
def dinvV (e : IVec S2x1600000 32) : FVec F S100000 .f32 :=
  select (cmpf (F := F) .ogt (degV e) (broadcastInDim S100000 ![] bcast_S_S100000 (constant S_ .f32 0x00000000#32)))
    (Host.rsqrt (degV e)) (broadcastInDim S100000 ![] bcast_S_S100000 (id (constant S_ .f32 0x00000000#32)))

/-- The symmetric normalisation of every edge: dinv[src] · dinv[dst]. -/
def normV (e : IVec S2x1600000 32) : FVec F S1700000 .f32 :=
  mulf (Host.gather gather_S100000_S1700000x1_S1700000_n_0_n_n_0_1_1 (dinvV (F := F) e) (broadcastInDim S1700000x1 ![0] bcast_S1700000_S1700000x1_0 (wrapV (srcV e))))
    (Host.gather gather_S100000_S1700000x1_S1700000_n_0_n_n_0_1_1 (dinvV (F := F) e) (broadcastInDim S1700000x1 ![0] bcast_S1700000_S1700000x1_0 (wrapV (dstV e))))

/-- An index vector padded with 3936 zeros to 208 blocks of 8192. -/
def padI (v : IVec S1700000 32) : IVec S1703936 32 :=
  concatenate S1703936 0 [⟨S1700000, v⟩, ⟨S3936, broadcastInDim S3936 ![] bcast_S_S3936 (constantI S_ 32 0#32)⟩] concatenates_S1700000_S3936_S1703936_d0

/-- A float vector padded with 3936 zeros. -/
def padF (v : FVec F S1700000 .f32) : FVec F S1703936 .f32 :=
  concatenate S1703936 0 [⟨S1700000, v⟩, ⟨S3936, broadcastInDim S3936 ![] bcast_S_S3936 (constant S_ .f32 0x00000000#32)⟩] concatenates_S1700000_S3936_S1703936_d0

/-- The wrap of a negative index on the padded vector. -/
def wrapP (v : IVec S1703936 32) : IVec S1703936 32 :=
  select (cmpi .slt v (broadcastInDim S1703936 ![] bcast_S_S1703936 (constantI S_ 32 0#32)))
    (addi v (broadcastInDim S1703936 ![] bcast_S_S1703936 (constantI S_ 32 100000#32))) v

/-- The wrapped padded indices as a column. -/
def colP (v : IVec S1703936 32) : IVec S1703936x1 32 :=
  broadcastInDim S1703936x1 ![0] bcast_S1703936_S1703936x1_0 (wrapP v)

/-- Row by row: is the index a row of the 100000-row table (0 ≤ index ≤ 99999)? -/
def inRangeP (v5 : IVec S1703936x1 32) : IVec S1703936 1 :=
  Host.reduce IntOp.andi
    (andi (cmpi .sge v5 (broadcastInDim S1703936x1 ![] bcast_S_S1703936x1 (constantI S_ 32 0#32)))
      (cmpi .sle v5 (broadcastInDim S1703936x1 ![0, 1] bcast_S1x1_S1703936x1_0_1 (broadcastInDim S1x1 ![1] bcast_S1_S1x1_1 (constantI S1 32 99999#32)))))
    (constantI S_ 1 1#1) reducesTo_S1703936x1_S1703936_d1 h_S_

/-- The rows of the table at the padded indices; a row whose index is out of range is filled with the fill word. -/
def takeV (h : FVec F S100000x128 .f32) (sp : IVec S1703936 32) : FVec F S1703936x128 .f32 :=
  select (broadcastInDim S1703936x128 ![0] bcast_S1703936_S1703936x128_0 (inRangeP (colP sp)))
    (Host.gather gather_S100000x128_S1703936x1_S1703936x128_1_0_n_n_0_1_1128 h (colP sp))
    (broadcastInDim S1703936x128 ![] bcast_S_S1703936x128 (constant S_ .f32 0x7FC00000#32))

/-- The messages summed into their destination rows. -/
def aggV (msg : FVec F S1703936x128 .f32) (dp : IVec S1703936 32) : FVec F S100000x128 .f32 :=
  Host.scatterAdd scatter_S100000x128_S1703936x1_S1703936x128_1_0_0_1
    (broadcastInDim S100000x128 ![] bcast_S_S100000x128 (constant S_ .f32 0x00000000#32))
    (broadcastInDim S1703936x1 ![0] bcast_S1703936_S1703936x1_0 dp) msg

end Stages

end Cert.KernelIdeal.Stages

end
-- ==== Proof.Region0.lean ====
/- The first launch: a row block of the product. Grid point t owns rows 5000·t … 5000·t + 4999 of the
   100000 × 128 result and writes there the product of the same rows of x (all 256 columns) with the whole of W;
   the twenty blocks tile the result, so after the launch it is the product x · W, entry by entry a sum over the
   256 contracted positions. At the exact reals the two narrowing casts are the identity. -/
import proofs.«428719_j6828998001543_1_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat Cfg Window)
open Cert.KernelIdeal Cert.KernelIdeal.Gen

namespace Cert.KernelIdeal.Regions

/-- The index of x that row i of the result meets at contracted position k. -/
abbrev lrow (i : S100000x128.Idx) (k : Fin 256) : S100000x256.Idx := fun a => match a with
  | ⟨0, _⟩ => ⟨(i 0).val, (i 0).isLt⟩
  | ⟨1, _⟩ => ⟨k.val, k.isLt⟩
/-- The index of W that column (i 1) of the result meets at contracted position k. -/
abbrev rcol (i : S100000x128.Idx) (k : Fin 256) : S256x128.Idx := fun a => match a with
  | ⟨0, _⟩ => ⟨k.val, k.isLt⟩
  | ⟨1, _⟩ => ⟨(i 1).val, (i 1).isLt⟩

/-- The matrix product, entry by entry. -/
def matProd (x : S100000x256.Idx → EReal) (w : S256x128.Idx → EReal) : S100000x128.Idx → EReal :=
  fun i => ∑ k : Fin 256, x (lrow i k) * w (rcol i k)

/-! ## One block of the product, entry by entry -/

/-- The zero offset of a whole-buffer access. -/
private theorem zero_off : (![0, 0] : Fin 2 → Nat) = fun _ => 0 := funext fun a => by fin_cases a <;> rfl

/-- Along the kept axis of the left factor the contraction's left index is the result's row. -/
private theorem lhs_block_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
/-- Along the contracted axis of the left factor it is the contracted position. -/
private theorem lhs_block_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
/-- Along the contracted axis of the right factor the contraction's right index is the contracted position. -/
private theorem rhs_block_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
/-- Along the kept axis of the right factor it is the result's column. -/
private theorem rhs_block_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- Inside a block: the index of the row block that row j of the block's result meets at contracted position k. -/
private abbrev lrowB (j : S5000x128.Idx) (k : Fin 256) : S5000x256.Idx := fun a => match a with
  | ⟨0, _⟩ => ⟨(j 0).val, (j 0).isLt⟩
  | ⟨1, _⟩ => ⟨k.val, k.isLt⟩
/-- Inside a block: the index of W that column (j 1) meets at contracted position k. -/
private abbrev rcolB (j : S5000x128.Idx) (k : Fin 256) : S256x128.Idx := fun a => match a with
  | ⟨0, _⟩ => ⟨k.val, k.isLt⟩
  | ⟨1, _⟩ => ⟨(j 1).val, (j 1).isLt⟩

/-- The body's result at an entry of its block: the sum over the 256 contracted positions of the products of the
    row block's and W's entries (the narrowing casts are the identity on the exact reals, the accumulator is zero). -/
private theorem pay_apply (x0 : Vec Ideal S5000x256 .f32) (x1 : Vec Ideal S256x128 .f32) (j : S5000x128.Idx) :
    k0_pay1 (F := Ideal) x0 x1 j = ∑ k : Fin 256, x0 (lrowB j k) * x1 (rcolB j k) := by
  unfold k0_pay1
  simp only [matmul]
  rw [Ideal.matmul_constant_zero_apply, ← Equiv.sum_comp (ValueIdx.contrEquiv1 dot_S5000x256_S256x128_S5000x128_1_0_0_1_n_n 256 rfl rfl).symm]
  refine Finset.sum_congr rfl fun k _ => ?_
  have hk := ValueIdx.contrEquiv1_symm_val dot_S5000x256_S256x128_S5000x128_1_0_0_1_n_n 256 rfl rfl k
  have el : dot_S5000x256_S256x128_S5000x128_1_0_0_1_n_n.lhsIdx j ((ValueIdx.contrEquiv1 dot_S5000x256_S256x128_S5000x128_1_0_0_1_n_n 256 rfl rfl).symm k) = lrowB j k := funext fun a => Fin.ext (by
    match a with
    | ⟨0, _⟩ => exact lhs_block_0 _ _
    | ⟨1, _⟩ => exact (lhs_block_1 _ _).trans hk)
  have er : dot_S5000x256_S256x128_S5000x128_1_0_0_1_n_n.rhsIdx j ((ValueIdx.contrEquiv1 dot_S5000x256_S256x128_S5000x128_1_0_0_1_n_n 256 rfl rfl).symm k) = rcolB j k := funext fun a => Fin.ext (by
    match a with
    | ⟨0, _⟩ => exact (rhs_block_0 _ _).trans hk
    | ⟨1, _⟩ => exact rhs_block_1 _ _)
  rw [el, er]
  rfl

/-! ## Where the blocks sit -/

/-- The three index maps over the twenty grid points: the row blocks of x and of the result move together, at the
    grid point's own number; W is read whole. -/
private theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 19
    ∧ win0_2.index t (1 : Fin 2) = 0 :=
  (by decide +kernel : ∀ t : Fin grid0.N, _)

/-- Every row block of the result is some grid point's. -/
private theorem idx_onto : ∀ q0 : Fin 20, ∃ t : Fin cfg0.N, win0_2.index t = ![q0.val, 0] :=
  (by decide +kernel : ∀ q0 : Fin 20, ∃ t : Fin grid0.N, win0_2.index t = ![q0.val, 0])

/-- An index of the result is in grid point t's block iff each coordinate is in the block's range on its axis. -/
private theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v36).slice (win0_2.rect t)).set ↔ _
  rw [View.set_slice_whole, Rect.mem_set_unit]
  exact Iff.rfl

/-- The twenty blocks tile the result: row r is in block r / 5000. -/
private theorem cover (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

variable (V : (c : Dev nD) → (b : Ref sig .tc) → Buf (Elt Ideal) ((c : Thread nD τ).loc b))

/-- What grid point t writes back is block t of the product of the two arrays the launch read. -/
private theorem flushed_eq (c : Dev nD) (t : Fin cfg0.N) :
    (dat0 (F := Ideal) V c).flushed 2 t
      = ((cfg0.win 2).blk t).view.read (Elt Ideal) (matProd (V c main_arg0) (V c main_arg2)) := by
  show (cfg0.win 2).cut (grid0.coords t) ((dat0 (F := Ideal) V c).after 2 t) = _
  rw [after0_2]
  unfold out0_2
  rw [View.canon_unit_zero zero_off]
  simp only [View.ld_unit_zero (S := S5000x256) zero_off, View.ld_unit_zero (S := S256x128) zero_off]
  obtain ⟨e0, e1, e2, e3, e4, e5⟩ := idx_facts t
  funext j
  show k0_pay1 (F := Ideal) (iblk0 V c 0 t) (iblk0 V c 1 t) j
    = matProd (V c main_arg0) (V c main_arg2) (((cfg0.win 2).blk t).view.emb j)
  rw [pay_apply]
  refine Finset.sum_congr rfl fun k _ => ?_
  have h0 : ((cfg0.win 0).blk t).view.emb (lrowB j k) = lrow (((cfg0.win 2).blk t).view.emb j) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 256 + 1 * k.val = k.val; omega
  have h1 : ((cfg0.win 1).blk t).view.emb (rcolB j k) = rcol (((cfg0.win 2).blk t).view.emb j) k := by
    funext a; apply Fin.ext
    match a with
    | ⟨0, _⟩ => show win0_1.index t (0 : Fin 2) * 256 + 1 * k.val = k.val; omega
    | ⟨1, _⟩ => show win0_1.index t (1 : Fin 2) * 128 + 1 * (j 1).val = win0_2.index t (1 : Fin 2) * 128 + 1 * (j 1).val; omega
  have key : ∀ (x : S100000x256.Idx → EReal) (w : S256x128.Idx → EReal),
      x (((cfg0.win 0).blk t).view.emb (lrowB j k)) * w (((cfg0.win 1).blk t).view.emb (rcolB j k))
        = x (lrow (((cfg0.win 2).blk t).view.emb j) k) * w (rcol (((cfg0.win 2).blk t).view.emb j) k) := by
    intro x w; rw [h0, h1]
  exact key (V c main_arg0) (V c main_arg2)

/-- After the first launch its result array holds the product of the two arrays it read. -/
theorem final0 (c : Dev nD) :
    (dat0 (F := Ideal) V c).arrAt 2 cfg0.N = matProd (V c main_arg0) (V c main_arg2) :=
  (dat0 (F := Ideal) V c).arrAt_eq_of_cover 2 (matProd (V c main_arg0) (V c main_arg2))
    (fun t _ => flushed_eq V c t) cover

end Cert.KernelIdeal.Regions

end
-- ==== Proof.Region12.lean ====
/- The second and third launches are pointwise. The second scales row e of a 1703936 × 128 array by the e-th
   entry of a column (8192 rows per grid point, 208 points); the third adds a row vector to every row of a
   100000 × 128 array and takes the maximum with zero (5000 rows per grid point, 20 points). In both the blocks
   tile the result, so the array after the launch is one function of the arrays read, index by index. -/
import proofs.«428719_j6828998001543_1_alg».proof.Proof.Gen.KernelIdeal.Frame
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat Cfg Window)
open Cert.KernelIdeal Cert.KernelIdeal.Gen

namespace Cert.KernelIdeal.Regions

/-- The column entry that scales row (i 0). -/
abbrev col0 (i : S1703936x128.Idx) : S1703936x1.Idx := fun a => match a with
  | ⟨0, _⟩ => ⟨(i 0).val, (i 0).isLt⟩
  | ⟨1, _⟩ => ⟨0, Nat.one_pos⟩
/-- The row-vector entry added in column (i 1). -/
abbrev row0 (i : S100000x128.Idx) : S1x128.Idx := fun a => match a with
  | ⟨0, _⟩ => ⟨0, Nat.one_pos⟩
  | ⟨1, _⟩ => ⟨(i 1).val, (i 1).isLt⟩

/-- Rows scaled by a column. -/
def rowScale (h : S1703936x128.Idx → EReal) (n : S1703936x1.Idx → EReal) : S1703936x128.Idx → EReal :=
  fun i => h i * n (col0 i)
/-- A row vector added to every row, then the positive part. -/
def biasRelu (a : S100000x128.Idx → EReal) (b : S1x128.Idx → EReal) : S100000x128.Idx → EReal :=
  fun i => max (a i + b (row0 i)) 0

/-! ## The two payloads at an index -/

private theorem hz : (![0, 0] : Fin 2 → Nat) = fun _ => 0 := funext fun a => by fin_cases a <;> rfl

/-- The scale kernel's payload at an index: the block entry times the column entry of the same row. -/
private theorem scale_apply (x0 : Vec Ideal S8192x1 .f32) (x1 : Vec Ideal S8192x128 .f32) (j : S8192x128.Idx) (k : S8192x1.Idx)
    (hk0 : (k 0).val = (j 0).val) (hk1 : (k 1).val = 0) :
    k1_pay1 x0 x1 j = x1 j * x0 k := by
  unfold k1_pay1
  simp only [shapeCast_self]
  show x1 j * broadcastTo S8192x128 x0 broadcasts_S8192x1_S8192x128 j = x1 j * x0 k
  rw [broadcastTo_apply x0 broadcasts_S8192x1_S8192x128 j k (fun a => by
    match a with
    | ⟨0, _⟩ => exact hk0.trans (if_neg (show ¬ ((8192 : Nat) = 1) by decide)).symm
    | ⟨1, _⟩ => exact hk1.trans (if_pos (show (1 : Nat) = 1 from rfl)).symm)]

/-- The bias kernel's payload at an index: the block entry plus the row vector's entry of the same column, or zero
    if that is larger. -/
private theorem bias_apply (x0 : Vec Ideal S1x128 .f32) (x1 : Vec Ideal S5000x128 .f32) (j : S5000x128.Idx) (k : S1x128.Idx)
    (hk0 : (k 0).val = 0) (hk1 : (k 1).val = (j 1).val) :
    k2_pay1 x0 x1 j = max (x1 j + x0 k) 0 := by
  unfold k2_pay1
  simp only [shapeCast_self]
  show max (x1 j + broadcastTo S5000x128 x0 broadcasts_S1x128_S5000x128 j) (Ideal.ofBits .f32 0x00000000#32) = max (x1 j + x0 k) 0
  rw [Ideal.ofBits_zero_f32, broadcastTo_apply x0 broadcasts_S1x128_S5000x128 j k (fun a => by
    match a with
    | ⟨0, _⟩ => exact hk0.trans (if_pos (show (1 : Nat) = 1 from rfl)).symm
    | ⟨1, _⟩ => exact hk1.trans (if_neg (show ¬ ((128 : Nat) = 1) by decide)).symm)]

/-- The scaled rows at an index, from the two entries read at indices that agree with it. -/
private theorem scale_read (h : S1703936x128.Idx → EReal) (n : S1703936x1.Idx → EReal) (p p' : S1703936x128.Idx) (q : S1703936x1.Idx)
    (hp : p = p') (hq : q = col0 p') : h p * n q = rowScale h n p' := by
  rw [hp, hq]; rfl

/-- The positive part of the sum at an index, from the two entries read at indices that agree with it. -/
private theorem bias_read (a : S100000x128.Idx → EReal) (b : S1x128.Idx → EReal) (p p' : S100000x128.Idx) (q : S1x128.Idx)
    (hp : p = p') (hq : q = row0 p') : max (a p + b q) 0 = biasRelu a b p' := by
  rw [hp, hq]; rfl

variable (V : (c : Dev nD) → (b : Ref sig .tc) → Buf (Elt Ideal) ((c : Thread nD τ).loc b))

/-! ## The second launch: rows scaled by a column -/

/-- The printed index maps, decided over the grid: at point t all three windows sit at block row t, block column 0. -/
private theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point t writes back is block t of the scaled rows. -/
private theorem flushed1_eq (c : Dev nD) (t : Fin cfg1.N) :
    (dat1 (F := Ideal) V c).flushed 2 t
      = ((cfg1.win 2).blk t).view.read (Elt Ideal) (rowScale (V c main_v37) (V c main_v38)) := by
  show (cfg1.win 2).cut (grid1.coords t) ((dat1 (F := Ideal) V c).after 2 t) = _
  rw [after1_2]
  unfold out1_2
  rw [View.canon_unit_zero hz]
  simp only [View.ld_unit_zero (S := S8192x128) hz, View.ld_unit_zero (S := S8192x1) hz]
  obtain ⟨e0, e1, e2, e3, e4, e5⟩ := idx_facts1 t
  funext j
  have hj0 : (j 0).val < 8192 := (j 0).isLt
  have hj1 : (j 1).val < 128 := (j 1).isLt
  let k : S8192x1.Idx := fun a => match a with
    | ⟨0, _⟩ => ⟨(j 0).val, hj0⟩
    | ⟨1, _⟩ => ⟨0, Nat.one_pos⟩
  show k1_pay1 (iblk1 V c 1 t) (iblk1 V c 0 t) j = rowScale (V c main_v37) (V c main_v38) (((cfg1.win 2).blk t).view.emb j)
  rw [scale_apply (iblk1 V c 1 t) (iblk1 V c 0 t) j k rfl rfl]
  have h0 : ((cfg1.win 0).blk t).view.emb j = ((cfg1.win 2).blk t).view.emb j := by
    funext a; apply Fin.ext
    match a with
    | ⟨0, _⟩ => show win1_0.index t (0 : Fin 2) * 8192 + 1 * (j 0).val = win1_2.index t (0 : Fin 2) * 8192 + 1 * (j 0).val; omega
    | ⟨1, _⟩ => show win1_0.index t (1 : Fin 2) * 128 + 1 * (j 1).val = win1_2.index t (1 : Fin 2) * 128 + 1 * (j 1).val; omega
  have h1 : ((cfg1.win 1).blk t).view.emb k = col0 (((cfg1.win 2).blk t).view.emb j) := by
    funext a; apply Fin.ext
    match a with
    | ⟨0, _⟩ => show win1_1.index t (0 : Fin 2) * 8192 + 1 * (j 0).val = win1_2.index t (0 : Fin 2) * 8192 + 1 * (j 0).val; omega
    | ⟨1, _⟩ => show win1_1.index t (1 : Fin 2) * 1 + 1 * 0 = 0; omega
  exact scale_read (V c main_v37) (V c main_v38) (((cfg1.win 0).blk t).view.emb j) (((cfg1.win 2).blk t).view.emb j)
    (((cfg1.win 1).blk t).view.emb k) h0 h1

/-- An index of the result is in point t's block iff each coordinate is in the block's range on its axis. -/
private theorem mem_blk1 (t : Fin cfg1.N) (i : S1703936x128.Idx) :
    i ∈ ((cfg1.win 2).blk t).view.set ↔ ∀ a : Fin 2, win1_2.index t a * S8192x128.size a ≤ (i a).val ∧ (i a).val < win1_2.index t a * S8192x128.size a + S8192x128.size a := by
  show i ∈ ((View.whole main_v39).slice (win1_2.rect t)).set ↔ _
  rw [View.set_slice_whole, Rect.mem_set_unit]
  exact Iff.rfl

/-- Every index of the result is in the block of the point that owns its row. -/
private theorem cover1 (i : S1703936x128.Idx) :
    ∃ t : Fin cfg1.N, (cfg1.win 2).flush t = true ∧ i ∈ ((cfg1.win 2).blk t).view.set := by
  have hi0 : (i 0).val < 1703936 := (i 0).isLt
  have hi1 : (i 1).val < 128 := (i 1).isLt
  have hN : cfg1.N = 208 := by decide
  let t : Fin cfg1.N := ⟨(i 0).val / 8192, by rw [hN]; omega⟩
  obtain ⟨e0, e1, e2, e3, e4, e5⟩ := idx_facts1 t
  have ht : t.val = (i 0).val / 8192 := rfl
  refine ⟨t, flush1_2 t, ?_⟩
  rw [mem_blk1]
  intro a
  match a with
  | ⟨0, _⟩ => show win1_2.index t (0 : Fin 2) * 8192 ≤ (i 0).val ∧ (i 0).val < win1_2.index t (0 : Fin 2) * 8192 + 8192; omega
  | ⟨1, _⟩ => show win1_2.index t (1 : Fin 2) * 128 ≤ (i 1).val ∧ (i 1).val < win1_2.index t (1 : Fin 2) * 128 + 128; omega

/-- After the second launch its result array holds the rows it read, each scaled by its column entry. -/
theorem final1 (c : Dev nD) :
    (dat1 (F := Ideal) V c).arrAt 2 cfg1.N = rowScale (V c main_v37) (V c main_v38) :=
  (dat1 (F := Ideal) V c).arrAt_eq_of_cover 2 (rowScale (V c main_v37) (V c main_v38))
    (fun t _ => flushed1_eq V c t) cover1

/-! ## The third launch: a row vector added to every row, then the positive part -/

/-- The printed index maps, decided over the grid: at point t the array read and the result sit at block row t,
    block column 0; the row vector's one block is always the same. -/
private theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is block t of the positive part of the sum. -/
private theorem flushed2_eq (c : Dev nD) (t : Fin cfg2.N) :
    (dat2 (F := Ideal) V c).flushed 2 t
      = ((cfg2.win 2).blk t).view.read (Elt Ideal) (biasRelu (V c main_v42) (V c main_v43)) := by
  show (cfg2.win 2).cut (grid2.coords t) ((dat2 (F := Ideal) V c).after 2 t) = _
  rw [after2_2]
  unfold out2_2
  rw [View.canon_unit_zero hz]
  simp only [View.ld_unit_zero (S := S5000x128) hz, View.ld_unit_zero (S := S1x128) hz]
  obtain ⟨e0, e1, e2, e3, e4, e5⟩ := idx_facts2 t
  funext j
  have hj0 : (j 0).val < 5000 := (j 0).isLt
  have hj1 : (j 1).val < 128 := (j 1).isLt
  let k : S1x128.Idx := fun a => match a with
    | ⟨0, _⟩ => ⟨0, Nat.one_pos⟩
    | ⟨1, _⟩ => ⟨(j 1).val, hj1⟩
  show k2_pay1 (iblk2 V c 1 t) (iblk2 V c 0 t) j = biasRelu (V c main_v42) (V c main_v43) (((cfg2.win 2).blk t).view.emb j)
  rw [bias_apply (iblk2 V c 1 t) (iblk2 V c 0 t) j k rfl rfl]
  have h0 : ((cfg2.win 0).blk t).view.emb j = ((cfg2.win 2).blk t).view.emb j := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * (j 1).val = win2_2.index t (1 : Fin 2) * 128 + 1 * (j 1).val; omega
  have h1 : ((cfg2.win 1).blk t).view.emb k = row0 (((cfg2.win 2).blk t).view.emb j) := by
    funext a; apply Fin.ext
    match a with
    | ⟨0, _⟩ => show win2_1.index t (0 : Fin 2) * 1 + 1 * 0 = 0; omega
    | ⟨1, _⟩ => show win2_1.index t (1 : Fin 2) * 128 + 1 * (j 1).val = win2_2.index t (1 : Fin 2) * 128 + 1 * (j 1).val; omega
  exact bias_read (V c main_v42) (V c main_v43) (((cfg2.win 0).blk t).view.emb j) (((cfg2.win 2).blk t).view.emb j)
    (((cfg2.win 1).blk t).view.emb k) h0 h1

/-- An index of the result is in point t's block iff each coordinate is in the block's range on its axis. -/
private theorem mem_blk2 (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v44).slice (win2_2.rect t)).set ↔ _
  rw [View.set_slice_whole, Rect.mem_set_unit]
  exact Iff.rfl

/-- Every index of the result is in the block of the point that owns its row. -/
private theorem cover2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 20 := by decide
  let t : Fin cfg2.N := ⟨(i 0).val / 5000, by rw [hN]; omega⟩
  obtain ⟨e0, e1, e2, e3, e4, e5⟩ := idx_facts2 t
  have ht : t.val = (i 0).val / 5000 := rfl
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- After the third launch its result array holds the positive part of the array it read plus the row vector. -/
theorem final2 (c : Dev nD) :
    (dat2 (F := Ideal) V c).arrAt 2 cfg2.N = biasRelu (V c main_v42) (V c main_v43) :=
  (dat2 (F := Ideal) V c).arrAt_eq_of_cover 2 (biasRelu (V c main_v42) (V c main_v43))
    (fun t _ => flushed2_eq V c t) cover2

end Cert.KernelIdeal.Regions

end
-- ==== Proof.KernelOut.lean ====
/- The kernel program's result as one function of its four arguments: the product x · W, its rows gathered at the
   padded sources, each row scaled by the edge's normalisation (zero on the padding), the scaled rows summed into
   their destination rows, the bias added to every row, and the positive part. -/
import proofs.«428719_j6828998001543_1_alg».proof.Proof.KernelStages
import proofs.«428719_j6828998001543_1_alg».proof.Proof.Region0
import proofs.«428719_j6828998001543_1_alg».proof.Proof.Region12

noncomputable section

namespace Cert.KernelIdeal.Stages

open Idealize.ShloMosaic
open Cert.KernelIdeal Cert.KernelIdeal.Gen Cert.KernelIdeal.Regions

/-- Row 0 of the edge array as a vector. -/
abbrev srcRow (e : IVec S2x1600000 32) : IVec S1600000 32 :=
  shapeCast S1600000 (extractStridedSlice S1x1600000 ![0, 0] e slices_S2x1600000_S1x1600000_0_0) shapeCasts_S1x1600000_S1600000

/-- The scaled messages: row e of the table rows gathered at the padded sources, times the padded normalisation. -/
def msgV (x : FVec Ideal S100000x256 .f32) (e : IVec S2x1600000 32) (w : FVec Ideal S256x128 .f32) :
    S1703936x128.Idx → EReal :=
  rowScale (takeV (F := Ideal) (matProd x w) (padI (srcV e)))
    (shapeCast S1703936x1 (padF (normV (F := Ideal) e)) shapeCasts_S1703936_S1703936x1)

/-- The kernel program's result. -/
def kernelOut (x : FVec Ideal S100000x256 .f32) (e : IVec S2x1600000 32) (w : FVec Ideal S256x128 .f32)
    (b : FVec Ideal S128 .f32) : S100000x128.Idx → EReal :=
  biasRelu (aggV (F := Ideal) (msgV x e w) (padI (dstV e))) (shapeCast S1x128 b shapeCasts_S128_S1x128)

end Cert.KernelIdeal.Stages

end
-- ==== Proof.KernelChain.lean ====
/- The contents of the kernel program's buffers at the boundaries between its host stretches and its three launches,
   read off the fold through @main: the padded sources, destinations and normalisation before the first launch; the
   product x · W after it; the gathered rows and the normalisation as a column before the second launch; the scaled
   messages after it; their sum by destination and the bias as a row before the third; and, after the third, the
   result: the positive part of the summed messages plus the bias. -/
import proofs.«428719_j6828998001543_1_alg».proof.Proof.Gen.KernelIdeal.Frame
import proofs.«428719_j6828998001543_1_alg».proof.Proof.KernelStages
import proofs.«428719_j6828998001543_1_alg».proof.Proof.Region0
import proofs.«428719_j6828998001543_1_alg».proof.Proof.Region12
import proofs.«428719_j6828998001543_1_alg».proof.Proof.KernelOut
import Idealize.ShloMosaic.Lib.StableHlo.Run

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen Cert.KernelIdeal.Regions Cert.KernelIdeal.Stages

/-! ## Before the first launch (any float family) -/

section ReadsF
variable {F : FTy → Type} [FloatOps F]
variable (m : (ℓ : Loc nD τ sig) → Buf (Elt F) ℓ) (ρ : Dev nD → PrngReg)

theorem W1_v3 (c : Dev nD) : W1 m ρ c (Proc.devRef .tc main_v3) = srcV (m ((c.tc : Thread nD τ).loc main_arg1)) := by
  show StableHlo.after hostOps0 (W0 m ρ c) (Proc.devRef .tc main_v3) = _
  after_results
  rfl

theorem W1_v6 (c : Dev nD) : W1 m ρ c (Proc.devRef .tc main_v6) = dstV (m ((c.tc : Thread nD τ).loc main_arg1)) := by
  show StableHlo.after hostOps0 (W0 m ρ c) (Proc.devRef .tc main_v6) = _
  after_results
  rfl

theorem W1_v12 (c : Dev nD) : W1 m ρ c (Proc.devRef .tc main_v12)
    = cmpf (F := F) .ogt (degV (m ((c.tc : Thread nD τ).loc main_arg1))) (broadcastInDim S100000 ![] bcast_S_S100000 (constant S_ .f32 0x00000000#32)) := by
  show StableHlo.after hostOps0 (W0 m ρ c) (Proc.devRef .tc main_v12) = _
  after_results
  rfl

theorem W1_v13 (c : Dev nD) : W1 m ρ c (Proc.devRef .tc main_v13) = Host.rsqrt (degV (F := F) (m ((c.tc : Thread nD τ).loc main_arg1))) := by
  show StableHlo.after hostOps0 (W0 m ρ c) (Proc.devRef .tc main_v13) = _
  after_results
  rfl

theorem W1_cst_2 (c : Dev nD) : W1 m ρ c (Proc.devRef .tc main_cst_2) = constant (F := F) S_ .f32 0x00000000#32 := by
  show StableHlo.after hostOps0 (W0 m ρ c) (Proc.devRef .tc main_cst_2) = _
  after_results

theorem W2_v3 (c : Dev nD) : W2 m ρ c (Proc.devRef .tc main_v3) = srcV (m ((c.tc : Thread nD τ).loc main_arg1)) := by
  show StableHlo.after hostOps0_1 (W1 m ρ c) (Proc.devRef .tc main_v3) = _
  have h := W1_v3 m ρ c
  generalize W1 m ρ c = V1 at h ⊢
  after_results
  exact h

theorem W2_v6 (c : Dev nD) : W2 m ρ c (Proc.devRef .tc main_v6) = dstV (m ((c.tc : Thread nD τ).loc main_arg1)) := by
  show StableHlo.after hostOps0_1 (W1 m ρ c) (Proc.devRef .tc main_v6) = _
  have h := W1_v6 m ρ c
  generalize W1 m ρ c = V1 at h ⊢
  after_results
  exact h

theorem W2_v14 (c : Dev nD) : W2 m ρ c (Proc.devRef .tc main_v14) = dinvV (F := F) (m ((c.tc : Thread nD τ).loc main_arg1)) := by
  show StableHlo.after hostOps0_1 (W1 m ρ c) (Proc.devRef .tc main_v14) = _
  have h12 := W1_v12 m ρ c
  have h13 := W1_v13 m ρ c
  have hc := W1_cst_2 m ρ c
  generalize W1 m ρ c = V1 at h12 h13 hc ⊢
  after_results
  rw [h12, h13, hc]
  rfl

theorem W3_v31 (c : Dev nD) : W3 m ρ c (Proc.devRef .tc main_v31) = padI (srcV (m ((c.tc : Thread nD τ).loc main_arg1))) := by
  show StableHlo.after hostOps0_2 (W2 m ρ c) (Proc.devRef .tc main_v31) = _
  have h := W2_v3 m ρ c
  generalize W2 m ρ c = V2 at h ⊢
  after_results
  rw [h]
  rfl

theorem W3_v33 (c : Dev nD) : W3 m ρ c (Proc.devRef .tc main_v33) = padI (dstV (m ((c.tc : Thread nD τ).loc main_arg1))) := by
  show StableHlo.after hostOps0_2 (W2 m ρ c) (Proc.devRef .tc main_v33) = _
  have h := W2_v6 m ρ c
  generalize W2 m ρ c = V2 at h ⊢
  after_results
  rw [h]
  rfl

set_option maxHeartbeats 4000000 in
theorem W3_v35 (c : Dev nD) : W3 m ρ c (Proc.devRef .tc main_v35) = padF (normV (F := F) (m ((c.tc : Thread nD τ).loc main_arg1))) := by
  show StableHlo.after hostOps0_2 (W2 m ρ c) (Proc.devRef .tc main_v35) = _
  have h3 := W2_v3 m ρ c
  have h6 := W2_v6 m ρ c
  have h14 := W2_v14 m ρ c
  generalize W2 m ρ c = V2 at h3 h6 h14 ⊢
  after_results
  rw [h3, h6, h14]
  rfl

/-- The three float arguments are untouched by the host stretches before the first launch. -/
theorem W3_arg0 (c : Dev nD) : W3 m ρ c (Proc.devRef .tc main_arg0) = (m ((c.tc : Thread nD τ).loc main_arg0)) := by
  show StableHlo.after hostOps0_2 (StableHlo.after hostOps0_1 (StableHlo.after hostOps0 (W0 m ρ c))) (Proc.devRef .tc main_arg0) = _
  after_results

theorem W3_arg2 (c : Dev nD) : W3 m ρ c (Proc.devRef .tc main_arg2) = (m ((c.tc : Thread nD τ).loc main_arg2)) := by
  show StableHlo.after hostOps0_2 (StableHlo.after hostOps0_1 (StableHlo.after hostOps0 (W0 m ρ c))) (Proc.devRef .tc main_arg2) = _
  after_results

theorem W3_arg3 (c : Dev nD) : W3 m ρ c (Proc.devRef .tc main_arg3) = (m ((c.tc : Thread nD τ).loc main_arg3)) := by
  show StableHlo.after hostOps0_2 (StableHlo.after hostOps0_1 (StableHlo.after hostOps0 (W0 m ρ c))) (Proc.devRef .tc main_arg3) = _
  after_results

end ReadsF

/-! ## The gather's stretch, read with its row-wise "and" held abstract

The stretch that gathers the table rows is read once with the reduction of the range test as a parameter, so that
the comparison of the two spellings of the stretch never opens the reduction over its 1703936 rows. -/

section TakeRead
variable {F : FTy → Type} [FloatOps F]

/-- The row-wise reduction's type. -/
abbrev RowAnd : Type := (⟨S1703936x1, .i1⟩ : BufTy).Contents (Elt F) → (⟨S_, .i1⟩ : BufTy).Contents (Elt F) → (⟨S1703936, .i1⟩ : BufTy).Contents (Elt F)

/-- The operations of the gather's stretch, the reduction a parameter. -/
def takeOps (RED : RowAnd (F := F)) : List (HloOp τ sig (Elt F)) :=
  [ StableHlo.TRef.nullary (.of main_call1_c : StableHlo.TRef sig ⟨S_, .i32⟩) (constantI S_ 32 0#32),
    StableHlo.TRef.unary (.of main_call1_c : StableHlo.TRef sig ⟨S_, .i32⟩) (.of main_call1_v0 : StableHlo.TRef sig ⟨S1703936, .i32⟩) (broadcastInDim S1703936 ![] bcast_S_S1703936),
    StableHlo.TRef.binary (.of main_v31 : StableHlo.TRef sig ⟨S1703936, .i32⟩) (.of main_call1_v0 : StableHlo.TRef sig ⟨S1703936, .i32⟩) (.of main_call1_v1 : StableHlo.TRef sig ⟨S1703936, .i1⟩) (cmpi .slt),
    StableHlo.TRef.nullary (.of main_call1_c_0 : StableHlo.TRef sig ⟨S_, .i32⟩) (constantI S_ 32 100000#32),
    StableHlo.TRef.unary (.of main_call1_c_0 : StableHlo.TRef sig ⟨S_, .i32⟩) (.of main_call1_v2 : StableHlo.TRef sig ⟨S1703936, .i32⟩) (broadcastInDim S1703936 ![] bcast_S_S1703936),
    StableHlo.TRef.binary (.of main_v31 : StableHlo.TRef sig ⟨S1703936, .i32⟩) (.of main_call1_v2 : StableHlo.TRef sig ⟨S1703936, .i32⟩) (.of main_call1_v3 : StableHlo.TRef sig ⟨S1703936, .i32⟩) addi,
    StableHlo.TRef.ternary (.of main_call1_v1 : StableHlo.TRef sig ⟨S1703936, .i1⟩) (.of main_call1_v3 : StableHlo.TRef sig ⟨S1703936, .i32⟩) (.of main_v31 : StableHlo.TRef sig ⟨S1703936, .i32⟩) (.of main_call1_v4 : StableHlo.TRef sig ⟨S1703936, .i32⟩) select,
    StableHlo.TRef.unary main_call1_call0.v0 (.of main_call1_v5 : StableHlo.TRef sig ⟨S1703936x1, .i32⟩) (broadcastInDim S1703936x1 ![0] bcast_S1703936_S1703936x1_0),
    StableHlo.TRef.nullary (.of main_call1_c_1 : StableHlo.TRef sig ⟨S1, .i32⟩) (constantI S1 32 99999#32),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v6 : StableHlo.TRef sig ⟨S1703936x1, .i32⟩) (broadcastInDim S1703936x1 ![] bcast_S_S1703936x1),
    StableHlo.TRef.binary (.of main_call1_v5 : StableHlo.TRef sig ⟨S1703936x1, .i32⟩) (.of main_call1_v6 : StableHlo.TRef sig ⟨S1703936x1, .i32⟩) (.of main_call1_v7 : StableHlo.TRef sig ⟨S1703936x1, .i1⟩) (cmpi .sge),
    StableHlo.TRef.unary (.of main_call1_c_1 : StableHlo.TRef sig ⟨S1, .i32⟩) (.of main_call1_v8 : StableHlo.TRef sig ⟨S1x1, .i32⟩) (broadcastInDim S1x1 ![1] bcast_S1_S1x1_1),
    StableHlo.TRef.unary (.of main_call1_v8 : StableHlo.TRef sig ⟨S1x1, .i32⟩) (.of main_call1_v9 : StableHlo.TRef sig ⟨S1703936x1, .i32⟩) (broadcastInDim S1703936x1 ![0, 1] bcast_S1x1_S1703936x1_0_1),
    StableHlo.TRef.binary (.of main_call1_v5 : StableHlo.TRef sig ⟨S1703936x1, .i32⟩) (.of main_call1_v9 : StableHlo.TRef sig ⟨S1703936x1, .i32⟩) (.of main_call1_v10 : StableHlo.TRef sig ⟨S1703936x1, .i1⟩) (cmpi .sle),
    StableHlo.TRef.binary (.of main_call1_v7 : StableHlo.TRef sig ⟨S1703936x1, .i1⟩) (.of main_call1_v10 : StableHlo.TRef sig ⟨S1703936x1, .i1⟩) (.of main_call1_v11 : StableHlo.TRef sig ⟨S1703936x1, .i1⟩) andi,
    StableHlo.TRef.nullary (.of main_call1_c_3 : StableHlo.TRef sig ⟨S_, .i1⟩) (constantI S_ 1 1#1),
    StableHlo.TRef.binary (.of main_call1_v11 : StableHlo.TRef sig ⟨S1703936x1, .i1⟩) (.of main_call1_c_3 : StableHlo.TRef sig ⟨S_, .i1⟩) (.of main_call1_v12 : StableHlo.TRef sig ⟨S1703936, .i1⟩) RED,
    StableHlo.TRef.binary (.of main_v36 : StableHlo.TRef sig ⟨S100000x128, .f32⟩) (.of main_call1_v5 : StableHlo.TRef sig ⟨S1703936x1, .i32⟩) (.of main_call1_v13 : StableHlo.TRef sig ⟨S1703936x128, .f32⟩) (fun x i => Host.gather gather_S100000x128_S1703936x1_S1703936x128_1_0_n_n_0_1_1128 x i),
    StableHlo.TRef.unary (.of main_call1_v12 : StableHlo.TRef sig ⟨S1703936, .i1⟩) (.of main_call1_v14 : StableHlo.TRef sig ⟨S1703936x128, .i1⟩) (broadcastInDim S1703936x128 ![0] bcast_S1703936_S1703936x128_0),
    StableHlo.TRef.nullary (.of main_call1_cst : StableHlo.TRef sig ⟨S_, .f32⟩) (constant S_ .f32 0x7FC00000#32),
    StableHlo.TRef.unary (.of main_call1_cst : StableHlo.TRef sig ⟨S_, .f32⟩) (.of main_call1_v15 : StableHlo.TRef sig ⟨S1703936x128, .f32⟩) (broadcastInDim S1703936x128 ![] bcast_S_S1703936x128),
    StableHlo.TRef.ternary (.of main_call1_v14 : StableHlo.TRef sig ⟨S1703936x128, .i1⟩) (.of main_call1_v13 : StableHlo.TRef sig ⟨S1703936x128, .f32⟩) (.of main_call1_v15 : StableHlo.TRef sig ⟨S1703936x128, .f32⟩) (.of main_v37 : StableHlo.TRef sig ⟨S1703936x128, .f32⟩) select ]

/-- The gathered rows, the reduction a parameter. -/
def takeWith (RED : RowAnd (F := F)) (h : FVec F S100000x128 .f32) (sp : IVec S1703936 32) : FVec F S1703936x128 .f32 :=
  select (broadcastInDim S1703936x128 ![0] bcast_S1703936_S1703936x128_0
      (RED (andi (cmpi .sge (colP sp) (broadcastInDim S1703936x1 ![] bcast_S_S1703936x1 (constantI S_ 32 0#32)))
          (cmpi .sle (colP sp) (broadcastInDim S1703936x1 ![0, 1] bcast_S1x1_S1703936x1_0_1 (broadcastInDim S1x1 ![1] bcast_S1_S1x1_1 (constantI S1 32 99999#32)))))
        (constantI S_ 1 1#1)))
    (Host.gather gather_S100000x128_S1703936x1_S1703936x128_1_0_n_n_0_1_1128 h (colP sp))
    (broadcastInDim S1703936x128 ![] bcast_S_S1703936x128 (constant S_ .f32 0x7FC00000#32))

set_option maxHeartbeats 4000000 in
theorem takeOps_read (RED : RowAnd (F := F)) (V4 : Valuation τ sig (Elt F)) :
    StableHlo.after (takeOps RED) V4 (Proc.devRef .tc main_v37)
      = takeWith RED (V4 (Proc.devRef .tc main_v36)) (V4 (Proc.devRef .tc main_v31)) := by
  unfold takeOps
  after_results
  rfl

/-- With the reduction put back, the parametrised stretch is the program's. -/
theorem takeOps_eq : takeOps (F := F) (fun x v => Host.reduce IntOp.andi x v reducesTo_S1703936x1_S1703936_d1 h_S_) = hostOps1 := rfl

theorem takeWith_eq (h : FVec F S100000x128 .f32) (sp : IVec S1703936 32) :
    takeWith (fun x v => Host.reduce IntOp.andi x v reducesTo_S1703936x1_S1703936_d1 h_S_) h sp = takeV h sp := rfl

end TakeRead

/-! ## From the first launch to the result (at the extended reals) -/

section ReadsI
variable (m : (ℓ : Loc nD τ sig) → Buf (Elt Ideal) ℓ) (ρ : Dev nD → PrngReg)

/-- After the first launch: the product. -/
theorem W4_v36 (c : Dev nD) : W4 m ρ c (Proc.devRef .tc main_v36) = matProd (m ((c.tc : Thread nD τ).loc main_arg0)) (m ((c.tc : Thread nD τ).loc main_arg2)) := by
  have h := (W4_arr m ρ c 2).trans (final0 (V3 m ρ) c)
  have e0 : V3 m ρ c main_arg0 = (m ((c.tc : Thread nD τ).loc main_arg0)) := W3_arg0 m ρ c
  have e2 : V3 m ρ c main_arg2 = (m ((c.tc : Thread nD τ).loc main_arg2)) := W3_arg2 m ρ c
  rw [e0, e2] at h
  exact h

theorem W4_v31 (c : Dev nD) : W4 m ρ c (Proc.devRef .tc main_v31) = padI (srcV (m ((c.tc : Thread nD τ).loc main_arg1))) :=
  (W4_of_ne m ρ c main_v31 (by decide)).trans (W3_v31 m ρ c)

theorem W4_v33 (c : Dev nD) : W4 m ρ c (Proc.devRef .tc main_v33) = padI (dstV (m ((c.tc : Thread nD τ).loc main_arg1))) :=
  (W4_of_ne m ρ c main_v33 (by decide)).trans (W3_v33 m ρ c)

theorem W4_v35 (c : Dev nD) : W4 m ρ c (Proc.devRef .tc main_v35) = padF (normV (F := Ideal) (m ((c.tc : Thread nD τ).loc main_arg1))) :=
  (W4_of_ne m ρ c main_v35 (by decide)).trans (W3_v35 m ρ c)

theorem W4_arg3 (c : Dev nD) : W4 m ρ c (Proc.devRef .tc main_arg3) = (m ((c.tc : Thread nD τ).loc main_arg3)) :=
  (W4_of_ne m ρ c main_arg3 (by decide)).trans (W3_arg3 m ρ c)

/-- Before the second launch: the gathered rows, and the buffers the gather's stretch leaves alone. -/
theorem W5_v37 (c : Dev nD) : W5 m ρ c (Proc.devRef .tc main_v37) = takeV (F := Ideal) (matProd (m ((c.tc : Thread nD τ).loc main_arg0)) (m ((c.tc : Thread nD τ).loc main_arg2))) (padI (srcV (m ((c.tc : Thread nD τ).loc main_arg1)))) := by
  have key := takeOps_read (F := Ideal) (fun x v => Host.reduce IntOp.andi x v reducesTo_S1703936x1_S1703936_d1 h_S_) (W4 m ρ c)
  rw [takeOps_eq, takeWith_eq, W4_v36, W4_v31] at key
  exact key

theorem W5_v35 (c : Dev nD) : W5 m ρ c (Proc.devRef .tc main_v35) = padF (normV (F := Ideal) (m ((c.tc : Thread nD τ).loc main_arg1))) := by
  show StableHlo.after hostOps1 (W4 m ρ c) (Proc.devRef .tc main_v35) = _
  have h := W4_v35 m ρ c
  generalize W4 m ρ c = V4 at h ⊢
  after_results
  exact h

theorem W5_v33 (c : Dev nD) : W5 m ρ c (Proc.devRef .tc main_v33) = padI (dstV (m ((c.tc : Thread nD τ).loc main_arg1))) := by
  show StableHlo.after hostOps1 (W4 m ρ c) (Proc.devRef .tc main_v33) = _
  have h := W4_v33 m ρ c
  generalize W4 m ρ c = V4 at h ⊢
  after_results
  exact h

theorem W5_arg3 (c : Dev nD) : W5 m ρ c (Proc.devRef .tc main_arg3) = (m ((c.tc : Thread nD τ).loc main_arg3)) := by
  show StableHlo.after hostOps1 (W4 m ρ c) (Proc.devRef .tc main_arg3) = _
  have h := W4_arg3 m ρ c
  generalize W4 m ρ c = V4 at h ⊢
  after_results
  exact h

theorem W6_v37 (c : Dev nD) : W6 m ρ c (Proc.devRef .tc main_v37) = takeV (F := Ideal) (matProd (m ((c.tc : Thread nD τ).loc main_arg0)) (m ((c.tc : Thread nD τ).loc main_arg2))) (padI (srcV (m ((c.tc : Thread nD τ).loc main_arg1)))) := by
  show StableHlo.after hostOps1_1 (W5 m ρ c) (Proc.devRef .tc main_v37) = _
  have h := W5_v37 m ρ c
  generalize W5 m ρ c = V5 at h ⊢
  after_results
  exact h

theorem W6_v38 (c : Dev nD) : W6 m ρ c (Proc.devRef .tc main_v38)
    = shapeCast S1703936x1 (padF (normV (F := Ideal) (m ((c.tc : Thread nD τ).loc main_arg1)))) shapeCasts_S1703936_S1703936x1 := by
  show StableHlo.after hostOps1_1 (W5 m ρ c) (Proc.devRef .tc main_v38) = _
  have h := W5_v35 m ρ c
  generalize W5 m ρ c = V5 at h ⊢
  after_results
  rw [h]
  rfl

theorem W6_v33 (c : Dev nD) : W6 m ρ c (Proc.devRef .tc main_v33) = padI (dstV (m ((c.tc : Thread nD τ).loc main_arg1))) := by
  show StableHlo.after hostOps1_1 (W5 m ρ c) (Proc.devRef .tc main_v33) = _
  have h := W5_v33 m ρ c
  generalize W5 m ρ c = V5 at h ⊢
  after_results
  exact h

theorem W6_arg3 (c : Dev nD) : W6 m ρ c (Proc.devRef .tc main_arg3) = (m ((c.tc : Thread nD τ).loc main_arg3)) := by
  show StableHlo.after hostOps1_1 (W5 m ρ c) (Proc.devRef .tc main_arg3) = _
  have h := W5_arg3 m ρ c
  generalize W5 m ρ c = V5 at h ⊢
  after_results
  exact h

/-- After the second launch: the scaled messages. -/
theorem W7_v39 (c : Dev nD) : W7 m ρ c (Proc.devRef .tc main_v39) = msgV (m ((c.tc : Thread nD τ).loc main_arg0)) (m ((c.tc : Thread nD τ).loc main_arg1)) (m ((c.tc : Thread nD τ).loc main_arg2)) := by
  have h := (W7_arr m ρ c 2).trans (final1 (V6 m ρ) c)
  have e37 : V6 m ρ c main_v37 = _ := W6_v37 m ρ c
  have e38 : V6 m ρ c main_v38 = _ := W6_v38 m ρ c
  rw [e37, e38] at h
  exact h

theorem W7_v33 (c : Dev nD) : W7 m ρ c (Proc.devRef .tc main_v33) = padI (dstV (m ((c.tc : Thread nD τ).loc main_arg1))) :=
  (W7_of_ne m ρ c main_v33 (by decide)).trans (W6_v33 m ρ c)

theorem W7_arg3 (c : Dev nD) : W7 m ρ c (Proc.devRef .tc main_arg3) = (m ((c.tc : Thread nD τ).loc main_arg3)) :=
  (W7_of_ne m ρ c main_arg3 (by decide)).trans (W6_arg3 m ρ c)

/-- Before the third launch: the messages summed by destination, and the bias as a row. -/
theorem W8_v42 (c : Dev nD) : W8 m ρ c (Proc.devRef .tc main_v42) = aggV (F := Ideal) (msgV (m ((c.tc : Thread nD τ).loc main_arg0)) (m ((c.tc : Thread nD τ).loc main_arg1)) (m ((c.tc : Thread nD τ).loc main_arg2))) (padI (dstV (m ((c.tc : Thread nD τ).loc main_arg1)))) := by
  show StableHlo.after hostOps2 (W7 m ρ c) (Proc.devRef .tc main_v42) = _
  have h39 := W7_v39 m ρ c
  have h33 := W7_v33 m ρ c
  generalize W7 m ρ c = V7 at h39 h33 ⊢
  after_results
  rw [h39, h33]
  rfl

theorem W8_v43 (c : Dev nD) : W8 m ρ c (Proc.devRef .tc main_v43) = shapeCast S1x128 (m ((c.tc : Thread nD τ).loc main_arg3)) shapeCasts_S128_S1x128 := by
  show StableHlo.after hostOps2 (W7 m ρ c) (Proc.devRef .tc main_v43) = _
  have h := W7_arg3 m ρ c
  generalize W7 m ρ c = V7 at h ⊢
  after_results
  rw [h]
  rfl

/-- After the third launch: the result. -/
theorem W9_v44 (c : Dev nD) : W9 m ρ c (Proc.devRef .tc main_v44) = kernelOut (m ((c.tc : Thread nD τ).loc main_arg0)) (m ((c.tc : Thread nD τ).loc main_arg1)) (m ((c.tc : Thread nD τ).loc main_arg2)) (m ((c.tc : Thread nD τ).loc main_arg3)) := by
  have h := (W9_arr m ρ c 2).trans (final2 (V8 m ρ) c)
  have e42 : V8 m ρ c main_v42 = _ := W8_v42 m ρ c
  have e43 : V8 m ρ c main_v43 = _ := W8_v43 m ρ c
  rw [e42, e43] at h
  exact h

end ReadsI

end Cert.KernelIdeal.Chain

end
-- ==== Proof.PreRange.lean ====
/- What the precondition says of the edge array: every entry of its row 0 (the sources), read as a signed
   integer, is a node id, 0 ≤ id < 100000. The precondition is a conjunction of four "all" reductions; the last one
   is over the two comparisons of row 0 with 0 and with 100000. -/
import proofs.«428719_j6828998001543_1_alg».proof.Pre_finite_inputs
import Idealize.ShloMosaic.Lib.ReduceAll
import Idealize.ShloMosaic.Lib.Affine
import Idealize.ShloMosaic.Lib.ValueIdx
import Idealize.ShloMosaic.Lib.Pipeline.Value

noncomputable section

namespace Cert.Proof.Range

open Idealize.ShloMosaic Cert.Pre_finite_inputs
open Cert.Pre_finite_inputs.Facts

variable [Cert.Pre_finite_inputs.Facts]

instance : Subsingleton S_.Idx := ⟨fun a b => funext fun d => d.elim0⟩

/-- Row 0 of the edge array as a vector. -/
abbrev srcRow (e : IVec S2x1600000 32) : IVec S1600000 32 :=
  shapeCast S1600000 (extractStridedSlice S1x1600000 ![0, 0] e slices_S2x1600000_S1x1600000_0_0) shapeCasts_S1x1600000_S1600000

/-- Under the precondition every source is a node id. -/
theorem src_in_range {F : FTy → Type} [FloatOps F] (x0 : FVec F S100000x256 .f32) (e : IVec S2x1600000 32)
    (x2 : FVec F S256x128 .f32) (x3 : FVec F S128 .f32)
    (h : Cert.Pre_finite_inputs.fn (F := F) x0 e x2 x3 = fun _ => 1#1) (j : S1600000.Idx) :
    0 ≤ (srcRow e j).toInt ∧ (srcRow e j).toInt < 100000 := by
  have h0 := congrFun h ValueIdx.ix0
  dsimp only [Cert.Pre_finite_inputs.fn, Cert.Pre_finite_inputs.fn_part1] at h0
  obtain ⟨-, h1⟩ := IntOp.andi_eq_one.1 h0
  have h2 := Host.reduce_andi_all _ _ _ _ _ h1 j
  obtain ⟨h3, h4⟩ := IntOp.andi_eq_one.1 h2
  have h5 := IntOp.cmpi_sge.1 h3
  have h6 := IntOp.cmpi_slt.1 h4
  have e0 : (broadcastInDim S1600000 ![] bcast_S_S1600000 (constantI S_ 32 0#32) j) = 0#32 := rfl
  have e1 : (broadcastInDim S1600000 ![] bcast_S_S1600000 (constantI S_ 32 100000#32) j) = 100000#32 := rfl
  have t0 : (0#32 : BitVec 32).toInt = 0 := by decide
  have t1 : (100000#32 : BitVec 32).toInt = 100000 := by decide
  rw [e0, t0] at h5
  rw [e1, t1] at h6
  exact ⟨h5, h6⟩

end Cert.Proof.Range

end
-- ==== Proof.LibRowOps.lean ====
/- General lemmas about three host operations at the extended reals, for arrays of rows: a gather of whole rows of an
   N × K array by a column of E signed indices (row e of the result is the row of the operand at the index, clamped
   into 0 … N − 1); the accumulating scatter of E rows into an N × K array by such a column (entry (n, k) of the
   result is the operand's entry plus the sum of the entries (e, k) of the updates over the rows e whose index is n;
   a row whose index is outside 0 … N − 1 contributes nothing); that appending rows of zeros to the updates, with
   any indices, does not change the scatter's result; and that a reduction by "and" of one-bit words is one when it
   starts from one and meets only ones. -/
import Idealize.ShloMosaic.PureOps.Ideal
import Idealize.ShloMosaic.PureOps.Reduce
import Idealize.ShloMosaic.Lib.ValueIdx

noncomputable section

namespace Cert.Lib.RowOps

open Idealize.ShloMosaic Idealize.ShloMosaic.ValueIdx

/-- The dimension numbers of `x[idx]` for an operand `[N, K]`, a column of start indices `[E, 1]` and the result
    `[E, K]`: whole rows, the row axis collapsed, the index vector on axis 1. -/
abbrev rowGatherDims (N E K : Nat)
    (wf : GatherDims.WF ⟨2, ![N, K]⟩ ⟨2, ![E, 1]⟩ ⟨2, ![E, K]⟩ [1] [0] [] [0] [] 1 ![1, K]) :
    GatherDims ⟨2, ![N, K]⟩ ⟨2, ![E, 1]⟩ ⟨2, ![E, K]⟩ where
  offsetDims := [1]
  collapsedSliceDims := [0]
  operandBatchingDims := []
  startIndicesBatchingDims := []
  startIndexMap := [0]
  indexVectorDim := 1
  sliceSizes := ![1, K]
  wf := wf

/-- Row `e`, column `k` of the gather is the operand at the row the index names, read signed and clamped into
    `[0, N − 1]`, and the same column. -/
theorem rowGather_apply {α : Type} {N E K w : Nat} (hN : 0 < N)
    (wf : GatherDims.WF ⟨2, ![N, K]⟩ ⟨2, ![E, 1]⟩ ⟨2, ![E, K]⟩ [1] [0] [] [0] [] 1 ![1, K])
    (x : (⟨2, ![N, K]⟩ : Shape).Idx → α) (idx : IVec ⟨2, ![E, 1]⟩ w) (e : Fin E) (k : Fin K) :
    Host.gather (rowGatherDims N E K wf) x idx (ix2 e k)
      = x (ix2 ⟨min (idx (ix2 e (0 : Fin 1))).toInt.toNat (N - 1), by omega⟩ k) := by
  unfold Host.gather
  congr 1
  funext a
  refine Fin.ext ?_
  match a with
  | ⟨0, _⟩ =>
    show (rowGatherDims N E K wf).start (ix2 e k) idx 0 + (rowGatherDims N E K wf).batchCoord (ix2 e k) 0
      + (rowGatherDims N E K wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E K wf).startIndexMap from List.mem_singleton.mpr rfl)]
    have hsi : (rowGatherDims N E K wf).siIdx (ix2 e k) ⟨List.idxOf (0 : Fin 2) (rowGatherDims N E K wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E K wf).start (ix2 e k) idx 1 + (rowGatherDims N E K wf).batchCoord (ix2 e k) 1
      + (rowGatherDims N E K wf).offCoord (ix2 e k) 1 = _
    rw [GatherDims.batchCoord_eq_zero _ _ _ List.not_mem_nil]
    unfold GatherDims.start
    rw [dif_neg (show (1 : Fin 2) ∉ (rowGatherDims N E K wf).startIndexMap from
      (show (1 : Fin 2) ∉ ([0] : List (Fin 2)) by decide))]
    unfold GatherDims.offCoord
    rw [dif_pos (show (1 : Fin 2) ∈ (rowGatherDims N E K wf).sKept from
      (GatherDims.mem_sKept _ _).2 ⟨(show (1 : Fin 2) ∉ ([0] : List (Fin 2)) by decide), List.not_mem_nil⟩)]
    simp only [Nat.zero_add, Nat.add_zero]
    rfl

/-- The dimension numbers of `x.at[idx].add(u)` for an operand `[N, K]`, a column of scatter indices `[E, 1]` and
    updates `[E, K]`: whole rows, the row axis inserted, the index vector on axis 1. -/
abbrev rowScatterDims (N E K : Nat)
    (wf : ScatterDims.WF ⟨2, ![N, K]⟩ ⟨2, ![E, 1]⟩ ⟨2, ![E, K]⟩ [1] [0] [0] 1) :
    ScatterDims ⟨2, ![N, K]⟩ ⟨2, ![E, 1]⟩ ⟨2, ![E, K]⟩ where
  updateWindowDims := [1]
  insertedWindowDims := [0]
  scatterDimsToOperandDims := [0]
  indexVectorDim := 1
  wf := wf

private theorem rowScatter_start_zero {N E K w : Nat}
    (wf : ScatterDims.WF ⟨2, ![N, K]⟩ ⟨2, ![E, 1]⟩ ⟨2, ![E, K]⟩ [1] [0] [0] 1)
    (idx : IVec ⟨2, ![E, 1]⟩ w) (e : Fin E) (k : Fin K) :
    (rowScatterDims N E K wf).start (ix2 e k) idx 0 = (idx (ix2 e (0 : Fin 1))).toInt := by
  unfold ScatterDims.start
  rw [dif_pos (show (0 : Fin 2) ∈ (rowScatterDims N E K wf).scatterDimsToOperandDims from List.mem_singleton.mpr rfl)]
  have hsi : (rowScatterDims N E K wf).siIdx (ix2 e k) ⟨List.idxOf (0 : Fin 2) (rowScatterDims N E K wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

private theorem rowScatter_start_one {N E K w : Nat}
    (wf : ScatterDims.WF ⟨2, ![N, K]⟩ ⟨2, ![E, 1]⟩ ⟨2, ![E, K]⟩ [1] [0] [0] 1)
    (idx : IVec ⟨2, ![E, 1]⟩ w) (e : Fin E) (k : Fin K) :
    (rowScatterDims N E K wf).start (ix2 e k) idx 1 = 0 := by
  unfold ScatterDims.start
  rw [dif_neg (show (1 : Fin 2) ∉ (rowScatterDims N E K wf).scatterDimsToOperandDims from
    (show (1 : Fin 2) ∉ ([0] : List (Fin 2)) by decide))]

private theorem rowScatter_window_zero {N E K : Nat}
    (wf : ScatterDims.WF ⟨2, ![N, K]⟩ ⟨2, ![E, 1]⟩ ⟨2, ![E, K]⟩ [1] [0] [0] 1) (e : Fin E) (k : Fin K) :
    (rowScatterDims N E K wf).window (ix2 e k) 0 = 0 := by
  unfold ScatterDims.window
  rw [dif_neg (show (0 : Fin 2) ∉ (rowScatterDims N E K wf).sKept from
    (show (0 : Fin 2) ∉ (List.finRange 2).filter (· ∉ ([0] : List (Fin 2))) by decide))]

private theorem rowScatter_window_one {N E K : Nat}
    (wf : ScatterDims.WF ⟨2, ![N, K]⟩ ⟨2, ![E, 1]⟩ ⟨2, ![E, K]⟩ [1] [0] [0] 1) (e : Fin E) (k : Fin K) :
    (rowScatterDims N E K wf).window (ix2 e k) 1 = k.val := by
  unfold ScatterDims.window
  rw [dif_pos (show (1 : Fin 2) ∈ (rowScatterDims N E K wf).sKept from
    (show (1 : Fin 2) ∈ (List.finRange 2).filter (· ∉ ([0] : List (Fin 2))) by decide))]
  rfl

/-- Update entry `(e, k)` lands at operand entry `i` exactly when row `e`'s index, read signed, is `i`'s row and
    `k` is `i`'s column. -/
theorem rowScatter_resultIdx_iff {N E K w : Nat}
    (wf : ScatterDims.WF ⟨2, ![N, K]⟩ ⟨2, ![E, 1]⟩ ⟨2, ![E, K]⟩ [1] [0] [0] 1)
    (idx : IVec ⟨2, ![E, 1]⟩ w) (e : Fin E) (k : Fin K) (i : (⟨2, ![N, K]⟩ : Shape).Idx) :
    (rowScatterDims N E K wf).resultIdx? (ix2 e k) idx = some i
      ↔ (idx (ix2 e (0 : Fin 1))).toInt = ((i 0).val : Int) ∧ k.val = (i 1).val := by
  have hs0 := rowScatter_start_zero wf idx e k
  have hs1 := rowScatter_start_one wf idx e k
  have hw0 := rowScatter_window_zero wf e k
  have hw1 := rowScatter_window_one wf e k
  have hi0 := idx2_lt0 i
  have hi1 := idx2_lt1 i
  unfold ScatterDims.resultIdx?
  split
  · rename_i h
    constructor
    · intro hsome
      have hfun := Option.some.inj hsome
      have h0 := congrArg Fin.val (congrFun hfun 0)
      have h1 := congrArg Fin.val (congrFun hfun 1)
      have hp0 := (h 0).1
      have hp1 := (h 1).1
      simp only [hs0, hw0, hs1, hw1] at h0 h1 hp0 hp1
      omega
    · rintro ⟨ha, hb⟩
      congr 1
      funext a
      refine Fin.ext ?_
      match a with
      | ⟨0, _⟩ =>
        show ((rowScatterDims N E K wf).start (ix2 e k) idx 0 + ((rowScatterDims N E K wf).window (ix2 e k) 0 : Nat)).toNat = (i 0).val
        rw [hs0, hw0]; omega
      | ⟨1, _⟩ =>
        show ((rowScatterDims N E K wf).start (ix2 e k) idx 1 + ((rowScatterDims N E K wf).window (ix2 e k) 1 : Nat)).toNat = (i 1).val
        rw [hs1, hw1]; omega
  · rename_i h
    constructor
    · intro hsome; exact absurd hsome (by simp)
    · rintro ⟨ha, hb⟩
      exfalso
      apply h
      intro a
      match a with
      | ⟨0, _⟩ =>
        show 0 ≤ (rowScatterDims N E K wf).start (ix2 e k) idx 0 + ((rowScatterDims N E K wf).window (ix2 e k) 0 : Nat)
          ∧ (rowScatterDims N E K wf).start (ix2 e k) idx 0 + ((rowScatterDims N E K wf).window (ix2 e k) 0 : Nat) < (N : Int)
        rw [hs0, hw0]; omega
      | ⟨1, _⟩ =>
        show 0 ≤ (rowScatterDims N E K wf).start (ix2 e k) idx 1 + ((rowScatterDims N E K wf).window (ix2 e k) 1 : Nat)
          ∧ (rowScatterDims N E K wf).start (ix2 e k) idx 1 + ((rowScatterDims N E K wf).window (ix2 e k) 1 : Nat) < (K : Int)
        rw [hs1, hw1]; have := k.isLt; omega

/-- The entry `(e, k)` of the shorter updates, read as an entry of the longer ones. -/
private def padIdx {E E' K : Nat} (hE : E ≤ E') (j : (⟨2, ![E, K]⟩ : Shape).Idx) : (⟨2, ![E', K]⟩ : Shape).Idx :=
  ix2 (Fin.castLE hE ⟨(j 0).val, idx2_lt0 j⟩) (⟨(j 1).val, idx2_lt1 j⟩ : Fin K)

private theorem padIdx_ix2 {E E' K : Nat} (hE : E ≤ E') (a : Fin E) (b : Fin K) :
    padIdx hE (ix2 a b) = ix2 (Fin.castLE hE a) b := rfl

/-- Appending rows of zeros to the updates (whatever their indices) does not change the accumulating scatter. -/
theorem rowScatterAdd_pad {N E E' K w : Nat} (hE : E ≤ E')
    (wf : ScatterDims.WF ⟨2, ![N, K]⟩ ⟨2, ![E, 1]⟩ ⟨2, ![E, K]⟩ [1] [0] [0] 1)
    (wf' : ScatterDims.WF ⟨2, ![N, K]⟩ ⟨2, ![E', 1]⟩ ⟨2, ![E', K]⟩ [1] [0] [0] 1)
    (x : (⟨2, ![N, K]⟩ : Shape).Idx → EReal)
    (idx : IVec ⟨2, ![E, 1]⟩ w) (idx' : IVec ⟨2, ![E', 1]⟩ w)
    (upd : (⟨2, ![E, K]⟩ : Shape).Idx → EReal) (upd' : (⟨2, ![E', K]⟩ : Shape).Idx → EReal)
    (hidx : ∀ e : Fin E, idx' (ix2 (Fin.castLE hE e) (0 : Fin 1)) = idx (ix2 e (0 : Fin 1)))
    (hupd : ∀ (e : Fin E) (k : Fin K), upd' (ix2 (Fin.castLE hE e) k) = upd (ix2 e k))
    (hzero : ∀ (e : Fin E') (k : Fin K), E ≤ e.val → upd' (ix2 e k) = 0) :
    Ideal.hostScatterAdd (rowScatterDims N E' K wf') x idx' upd'
      = Ideal.hostScatterAdd (rowScatterDims N E K wf) x idx upd := by
  unfold Ideal.hostScatterAdd
  funext i
  congr 1
  symm
  refine Finset.sum_bij_ne_zero (fun j _ _ => padIdx hE j) ?_ ?_ ?_ ?_
  · intro j hj _
    obtain ⟨a, b, rfl⟩ : ∃ a b, j = ix2 a b := ⟨_, _, eq_ix2 j⟩
    rw [Finset.mem_filter] at hj ⊢
    refine ⟨Finset.mem_univ _, ?_⟩
    have hj' := hj.2
    rw [padIdx_ix2]
    rw [rowScatter_resultIdx_iff] at hj' ⊢
    rw [hidx]; exact hj'
  · intro j _ _ j' _ _ hjj
    obtain ⟨a, b, rfl⟩ : ∃ a b, j = ix2 a b := ⟨_, _, eq_ix2 j⟩
    obtain ⟨a', b', rfl⟩ : ∃ a b, j' = ix2 a b := ⟨_, _, eq_ix2 j'⟩
    rw [padIdx_ix2, padIdx_ix2] at hjj
    have h0 : (Fin.castLE hE a).val = (Fin.castLE hE a').val := congrArg Fin.val (congrFun hjj 0)
    have h1 : b.val = b'.val := congrArg Fin.val (congrFun hjj 1)
    have e0 : a = a' := Fin.ext h0
    have e1 : b = b' := Fin.ext h1
    rw [e0, e1]
  · intro c hc hne
    obtain ⟨a, b, rfl⟩ : ∃ a b, c = ix2 a b := ⟨_, _, eq_ix2 c⟩
    rw [Finset.mem_filter] at hc
    have hlt : a.val < E := by
      by_contra hge
      exact hne (hzero _ _ (Nat.le_of_not_lt hge))
    have hcast : Fin.castLE hE ⟨a.val, hlt⟩ = a := Fin.ext rfl
    have hc' := hc.2
    refine ⟨ix2 (⟨a.val, hlt⟩ : Fin E) b, ?_, ?_, ?_⟩
    · rw [Finset.mem_filter]
      refine ⟨Finset.mem_univ _, ?_⟩
      rw [rowScatter_resultIdx_iff] at hc' ⊢
      rw [← hidx, hcast]; exact hc'
    · rw [← hupd, hcast]; exact hne
    · rw [padIdx_ix2, hcast]
  · intro j _ _
    obtain ⟨a, b, rfl⟩ : ∃ a b, j = ix2 a b := ⟨_, _, eq_ix2 j⟩
    rw [padIdx_ix2, hupd]

private theorem foldl_andi_one {ι : Type} (f : ι → BitVec 1) :
    ∀ (l : List ι) (init : BitVec 1), init = 1#1 → (∀ n ∈ l, f n = 1#1) →
      l.foldl (fun r n => IntOp.andi r (f n)) init = 1#1
  | [], init, h, _ => h
  | a :: l, init, h, hl => by
    rw [List.foldl_cons]
    refine foldl_andi_one f l _ ?_ (fun n hn => hl n (List.mem_cons_of_mem _ hn))
    rw [h, hl a (List.mem_cons_self ..)]
    rfl

/-- A reduction by "and" that starts from one and meets only ones is one. -/
theorem reduce_andi_of_all_one {s t u : Shape} {axes : List (Fin s.rank)} (x : s.Idx → BitVec 1)
    (init : u.Idx → BitVec 1) (h : s.ReducesTo axes t) (hu : 0 < u.numel) (j : t.Idx)
    (hinit : init (Shape.Idx.first hu) = 1#1) (hx : ∀ i, h.drop i = j → x i = 1#1) :
    Host.reduce IntOp.andi x init h hu j = 1#1 := by
  rw [Host.reduce_eq_foldl]
  refine foldl_andi_one x _ _ hinit ?_
  intro i hi
  rw [List.mem_filter] at hi
  exact hx i (of_decide_eq_true hi.2)

end Cert.Lib.RowOps

end
-- ==== Proof.TakeFacts.lean ====
/- Index-by-index facts about the kernel's host stages. A vector of "node ids" is one whose entries, read as signed
   integers, lie in 0 … 99999. For such a vector Python's wrap of negative indices is the identity, the range test
   of the row gather passes on every row, and so the gather of table rows is the table read at the index itself:
   the fill word is never chosen. Padding an index vector with zeros keeps it a vector of node ids; the self loops
   are node ids; a padded float vector is zero on its padding. -/
import proofs.«428719_j6828998001543_1_alg».proof.Proof.KernelStages
import proofs.«428719_j6828998001543_1_alg».proof.Proof.LibRowOps
import Idealize.ShloMosaic.Lib.ValueIdx
import Idealize.ShloMosaic.Lib.Pipeline.Value
import Idealize.ShloMosaic.Lib.Affine
import Idealize.ShloMosaic.Lib.StableHlo.Predicate
import Idealize.ShloMosaic.PureOps.Ideal
import Idealize.ShloMosaic.PureOps.Ideal.Laws

noncomputable section

namespace Cert.KernelIdeal.Stages

open Idealize.ShloMosaic Idealize.ShloMosaic.ValueIdx
open Cert.KernelIdeal Cert.KernelIdeal.Gen

/-- Every entry, read signed, is a node id. -/
def IsNodeIds {S : Shape} (v : IVec S 32) : Prop := ∀ j : S.Idx, 0 ≤ (v j).toInt ∧ (v j).toInt < 100000

/-! ## The concatenations, read -/

theorem withLoops_left (r : IVec S1600000 32) (e : Fin 1700000) (he : e.val < 1600000) :
    withLoops r (ix1 e) = r (ix1 ⟨e.val, he⟩) := by
  unfold withLoops
  exact concatenate_pair_apply_left 0 r _ _ (ix1 e) rfl (ix1 ⟨e.val, he⟩) (fun b => by
    match b with
    | ⟨0, _⟩ => rfl)

theorem withLoops_right (r : IVec S1600000 32) (e : Fin 1700000) (he : 1600000 ≤ e.val) :
    withLoops r (ix1 e) = BitVec.ofNat 32 (e.val - 1600000) := by
  unfold withLoops
  have hsub : e.val - 1600000 < 100000 := by have := e.isLt; omega
  refine (concatenate_pair_apply_right 0 r _ concatenates_S1600000_S100000_S1700000_d0 (ix1 e) rfl rfl
    (ix1 ⟨e.val - 1600000, hsub⟩ : S100000.Idx) (fun b hb => absurd (Fin.ext (Nat.lt_one_iff.mp b.isLt)) hb) ?_).trans rfl
  show e.val - 1600000 + 1600000 = e.val
  omega

theorem padI_left (v : IVec S1700000 32) (e : Fin 1703936) (he : e.val < 1700000) :
    padI v (ix1 e) = v (ix1 ⟨e.val, he⟩) := by
  unfold padI
  exact concatenate_pair_apply_left 0 v _ _ (ix1 e) rfl (ix1 ⟨e.val, he⟩) (fun b => by
    match b with
    | ⟨0, _⟩ => rfl)

theorem padI_right (v : IVec S1700000 32) (e : Fin 1703936) (he : 1700000 ≤ e.val) :
    padI v (ix1 e) = 0#32 := by
  unfold padI
  have hsub : e.val - 1700000 < 3936 := by have := e.isLt; omega
  refine (concatenate_pair_apply_right 0 v _ concatenates_S1700000_S3936_S1703936_d0 (ix1 e) rfl rfl
    (ix1 ⟨e.val - 1700000, hsub⟩ : S3936.Idx) (fun b hb => absurd (Fin.ext (Nat.lt_one_iff.mp b.isLt)) hb) ?_).trans rfl
  show e.val - 1700000 + 1700000 = e.val
  omega

theorem padF_left {F : FTy → Type} [FloatOps F] (v : FVec F S1700000 .f32) (e : Fin 1703936) (he : e.val < 1700000) :
    padF v (ix1 e) = v (ix1 ⟨e.val, he⟩) := by
  unfold padF
  exact concatenate_pair_apply_left 0 v _ _ (ix1 e) rfl (ix1 ⟨e.val, he⟩) (fun b => by
    match b with
    | ⟨0, _⟩ => rfl)

theorem padF_right (v : FVec Ideal S1700000 .f32) (e : Fin 1703936) (he : 1700000 ≤ e.val) :
    padF v (ix1 e) = (0 : EReal) := by
  unfold padF
  have hsub : e.val - 1700000 < 3936 := by have := e.isLt; omega
  refine (concatenate_pair_apply_right 0 v _ concatenates_S1700000_S3936_S1703936_d0 (ix1 e) rfl rfl
    (ix1 ⟨e.val - 1700000, hsub⟩ : S3936.Idx) (fun b hb => absurd (Fin.ext (Nat.lt_one_iff.mp b.isLt)) hb) ?_).trans ?_
  · show e.val - 1700000 + 1700000 = e.val
    omega
  · show Ideal.ofBits .f32 0x00000000#32 = 0
    exact Ideal.ofBits_zero_f32

/-! ## Node ids -/

theorem withLoops_nodeIds (r : IVec S1600000 32) (hr : IsNodeIds r) : IsNodeIds (withLoops r) := by
  intro j
  obtain ⟨e, rfl⟩ : ∃ e, j = ix1 e := ⟨_, eq_ix1 j⟩
  by_cases he : e.val < 1600000
  · rw [withLoops_left r e he]; exact hr _
  · have he' : 1600000 ≤ e.val := Nat.le_of_not_lt he
    have hlt := e.isLt
    rw [withLoops_right r e he', StableHlo.Predicate.toInt_ofNat_small _ (by omega)]
    omega

theorem padI_nodeIds (v : IVec S1700000 32) (hv : IsNodeIds v) : IsNodeIds (padI v) := by
  intro j
  obtain ⟨e, rfl⟩ : ∃ e, j = ix1 e := ⟨_, eq_ix1 j⟩
  by_cases he : e.val < 1700000
  · rw [padI_left v e he]; exact hv _
  · rw [padI_right v e (Nat.le_of_not_lt he)]
    decide

theorem wrapV_of_nodeIds (v : IVec S1700000 32) (hv : IsNodeIds v) : wrapV v = v := by
  funext j
  unfold wrapV
  rw [select_apply]
  have hc : cmpi .slt v (broadcastInDim S1700000 ![] bcast_S_S1700000 (constantI S_ 32 0#32)) j = 0#1 := by
    apply eq_zero_of_ne_one
    show ¬ IntOp.cmpi .slt (v j) 0#32 = 1#1
    rw [IntOp.cmpi_slt]
    have h0 : (0#32 : BitVec 32).toInt = 0 := by decide
    have := (hv j).1
    rw [h0]; omega
  rw [hc, select_zero]

theorem wrapP_of_nodeIds (v : IVec S1703936 32) (hv : IsNodeIds v) : wrapP v = v := by
  funext j
  unfold wrapP
  rw [select_apply]
  have hc : cmpi .slt v (broadcastInDim S1703936 ![] bcast_S_S1703936 (constantI S_ 32 0#32)) j = 0#1 := by
    apply eq_zero_of_ne_one
    show ¬ IntOp.cmpi .slt (v j) 0#32 = 1#1
    rw [IntOp.cmpi_slt]
    have h0 : (0#32 : BitVec 32).toInt = 0 := by decide
    have := (hv j).1
    rw [h0]; omega
  rw [hc, select_zero]

/-- The column of wrapped indices at a row of node ids is the index itself. -/
private theorem colP_apply_of_nodeIds (v : IVec S1703936 32) (hv : IsNodeIds v) (i : S1703936x1.Idx) :
    colP v i = v (ix1 ⟨(i 0).val, idx2_lt0 i⟩) := by
  unfold colP
  rw [wrapP_of_nodeIds v hv]
  exact broadcastInDim_apply _ bcast_S1703936_S1703936x1_0 v i (ix1 ⟨(i 0).val, idx2_lt0 i⟩) (fun a => match a with
    | ⟨0, _⟩ => by show (i 0).val = if (1703936 : Nat) = 1 then 0 else (i 0).val; rw [if_neg (by decide)])

theorem inRangeP_of_nodeIds (v : IVec S1703936 32) (hv : IsNodeIds v) (j : S1703936.Idx) :
    inRangeP (colP v) j = 1#1 := by
  unfold inRangeP
  refine Cert.Lib.RowOps.reduce_andi_of_all_one _ _ _ _ _ rfl ?_
  intro i _
  have hcol : colP v i = v (ix1 ⟨(i 0).val, idx2_lt0 i⟩) := colP_apply_of_nodeIds v hv i
  show IntOp.andi (IntOp.cmpi .sge (colP v i) 0#32) (IntOp.cmpi .sle (colP v i) 99999#32) = 1#1
  rw [IntOp.andi_eq_one, IntOp.cmpi_sge, IntOp.cmpi_sle, hcol]
  have h0 : (0#32 : BitVec 32).toInt = 0 := by decide
  have h9 : (99999#32 : BitVec 32).toInt = 99999 := by decide
  have := hv (ix1 ⟨(i 0).val, idx2_lt0 i⟩)
  rw [h0, h9]; omega

/-! ## The gathers of table rows at node ids -/

private theorem rowGather_nodeIds_aux {α : Type} {E : Nat}
    (wf : GatherDims.WF ⟨2, ![100000, 128]⟩ ⟨2, ![E, 1]⟩ ⟨2, ![E, 128]⟩ [1] [0] [] [0] [] 1 ![1, 128])
    (h : (⟨2, ![100000, 128]⟩ : Shape).Idx → α) (col : IVec ⟨2, ![E, 1]⟩ 32) (e : Fin E) (k : Fin 128)
    (hc : 0 ≤ (col (ix2 e (0 : Fin 1))).toInt ∧ (col (ix2 e (0 : Fin 1))).toInt < 100000) :
    Host.gather (Cert.Lib.RowOps.rowGatherDims 100000 E 128 wf) h col (ix2 e k)
      = h (ix2 (⟨(col (ix2 e (0 : Fin 1))).toInt.toNat, by omega⟩ : Fin 100000) k) := by
  rw [Cert.Lib.RowOps.rowGather_apply (by decide) wf h col e k]
  refine congrArg h ?_
  funext a
  match a with
  | ⟨0, _⟩ => exact Fin.ext (Nat.min_eq_left (by omega))
  | ⟨1, _⟩ => rfl

/-- The padded gather with its range test: at node ids it is the table row at the id. -/
theorem takeV_apply {F : FTy → Type} [FloatOps F] (h : FVec F S100000x128 .f32) (sp : IVec S1703936 32)
    (hsp : IsNodeIds sp) (e : Fin 1703936) (k : Fin 128) :
    takeV h sp (ix2 e k) = h (ix2 (⟨(sp (ix1 e)).toInt.toNat, by have := hsp (ix1 e); omega⟩ : Fin 100000) k) := by
  unfold takeV
  rw [select_apply]
  have hmask : broadcastInDim S1703936x128 ![0] bcast_S1703936_S1703936x128_0 (inRangeP (colP sp)) (ix2 e k) = 1#1 := by
    rw [broadcastInDim_apply _ bcast_S1703936_S1703936x128_0 _ (ix2 e k) (ix1 e) (fun a => match a with
      | ⟨0, _⟩ => by show e.val = if (1703936 : Nat) = 1 then 0 else e.val; rw [if_neg (by decide)])]
    exact inRangeP_of_nodeIds sp hsp _
  rw [hmask, select_one]
  have hcol : colP sp (ix2 e (0 : Fin 1)) = sp (ix1 e) := colP_apply_of_nodeIds sp hsp _
  have hc := hsp (ix1 e)
  rw [← hcol] at hc
  show Host.gather (Cert.Lib.RowOps.rowGatherDims 100000 1703936 128 _) h (colP sp) (ix2 e k) = _
  rw [rowGather_nodeIds_aux _ h (colP sp) e k hc]
  refine congrArg h ?_
  funext a
  match a with
  | ⟨0, _⟩ => exact Fin.ext (by show (colP sp (ix2 e (0 : Fin 1))).toInt.toNat = (sp (ix1 e)).toInt.toNat; rw [hcol])
  | ⟨1, _⟩ => rfl

/-- A plain row gather of the 100000 × 128 table at a column of E wrapped node ids is the table row at the id
    (any dimension record of that kind: the kernel's program and its reference each carry their own). -/
theorem rowGather_nodeIds {α : Type} {E : Nat}
    (wf : GatherDims.WF ⟨2, ![100000, 128]⟩ ⟨2, ![E, 1]⟩ ⟨2, ![E, 128]⟩ [1] [0] [] [0] [] 1 ![1, 128])
    (h : (⟨2, ![100000, 128]⟩ : Shape).Idx → α) (col : IVec ⟨2, ![E, 1]⟩ 32) (e : Fin E) (k : Fin 128)
    (hc : 0 ≤ (col (ix2 e (0 : Fin 1))).toInt ∧ (col (ix2 e (0 : Fin 1))).toInt < 100000) :
    Host.gather (Cert.Lib.RowOps.rowGatherDims 100000 E 128 wf) h col (ix2 e k)
      = h (ix2 (⟨(col (ix2 e (0 : Fin 1))).toInt.toNat, by omega⟩ : Fin 100000) k) :=
  rowGather_nodeIds_aux wf h col e k hc

end Cert.KernelIdeal.Stages

end
-- ==== Proof.RefStages.lean ====
/- The reference program computes its sources, destinations, wrapped sources and edge normalisation by the same
   operations, in the same order, as the kernel's program: its stages are the kernel's stage functions. -/
import proofs.«428719_j6828998001543_1_alg».proof.Proof.KernelStages
import proofs.«428719_j6828998001543_1_alg».proof.Proof.RefRead

set_option maxRecDepth 16384

noncomputable section

namespace Cert.Proof.RefStages

open Idealize.ShloMosaic
open Cert.KernelIdeal.Stages

variable {F : FTy → Type} [FloatOps F]

theorem ref_src (e : IVec Cert.KernelIdeal.S2x1600000 32) :
    Cert.ReferenceIdeal.Read.val_main_v3 (F := F) e = srcV e := rfl

theorem ref_dst (e : IVec Cert.KernelIdeal.S2x1600000 32) :
    Cert.ReferenceIdeal.Read.val_main_v6 (F := F) e = dstV e := rfl

theorem ref_wsrc (e : IVec Cert.KernelIdeal.S2x1600000 32) :
    Cert.ReferenceIdeal.Read.val_main_v35 (F := F) e = wrapV (srcV e) := rfl

theorem ref_norm (e : IVec Cert.KernelIdeal.S2x1600000 32) :
    Cert.ReferenceIdeal.Read.val_main_v29 (F := F) e = normV (F := F) e := rfl

end Cert.Proof.RefStages

end
-- ==== Proof.BridgeMsg.lean ====
/- The messages of the two programs, row by row. On a real edge row (below 1700000) the kernel's scaled message is
   the reference's: the sources are node ids, so neither the wrap of negative indices nor the range test of the
   kernel's gather changes anything, both gathers read row src of the product x · W, and both scale it by the same
   normalisation. On a padding row the kernel's message is a table row times zero, which is zero. -/
import proofs.«428719_j6828998001543_1_alg».proof.Proof.KernelOut
import proofs.«428719_j6828998001543_1_alg».proof.Proof.TakeFacts
import proofs.«428719_j6828998001543_1_alg».proof.Proof.RefStages
import proofs.«428719_j6828998001543_1_alg».proof.Proof.RefRead
import proofs.«428719_j6828998001543_1_alg».proof.Proof.LibRowOps
import Idealize.ShloMosaic.Lib.ValueIdx
import Idealize.ShloMosaic.Lib.Pipeline.Value
import Idealize.ShloMosaic.PureOps.Ideal.Laws

set_option maxRecDepth 16384

noncomputable section

namespace Cert.Proof.Bridge

open Idealize.ShloMosaic Idealize.ShloMosaic.ValueIdx
open Cert.KernelIdeal Cert.KernelIdeal.Gen Cert.KernelIdeal.Stages Cert.KernelIdeal.Regions

/-- The kernel's product is the reference's. -/
theorem matProd_eq (x : FVec Ideal S100000x256 .f32) (w : FVec Ideal S256x128 .f32) :
    matProd x w = Cert.ReferenceIdeal.Read.val_main_v30 (F := Ideal) x w :=
  funext fun i => (Cert.ReferenceIdeal.Read.val_main_v30_apply x w i).symm

/-- With node-id sources, the sources with their self loops, padded, are node ids. -/
theorem srcP_nodeIds (e : IVec S2x1600000 32) (hr : IsNodeIds (srcRow e)) : IsNodeIds (padI (srcV e)) :=
  padI_nodeIds _ (withLoops_nodeIds _ hr)

/-! ## Both messages as one expression: a table row at the source, times the edge's normalisation -/

/-- Row n of a 100000-row table, the row given by a natural number (zero where n is not a row). -/
private def rowAt (h : S100000x128.Idx → EReal) (n : Nat) (k : Fin 128) : EReal :=
  if hn : n < 100000 then h (ix2 (⟨n, hn⟩ : Fin 100000) k) else 0

private theorem rowAt_eq (h : S100000x128.Idx → EReal) (n : Nat) (hn : n < 100000) (k : Fin 128) :
    h (ix2 (⟨n, hn⟩ : Fin 100000) k) = rowAt h n k := by
  unfold rowAt; rw [dif_pos hn]

/-- A vector of 1703936 entries reshaped to a column, read at the entry that scales row r: its r-th entry. -/
private theorem scale_at (v : FVec Ideal S1703936 .f32) (r : Fin 1703936) (k : Fin 128) :
    shapeCast S1703936x1 v shapeCasts_S1703936_S1703936x1 (col0 (ix2 r k)) = v (ix1 r) :=
  shapeCast_apply v shapeCasts_S1703936_S1703936x1 (col0 (ix2 r k)) (ix1 r)
    (by rewrite [Shape.rowMajor_val_two, Shape.rowMajor_val_one]; show r.val = r.val * 1 + 0; omega)

/-- The kernel's message on a real edge row: row src of the product, times the edge's normalisation. -/
private theorem msg_kernel (x : FVec Ideal S100000x256 .f32) (e : IVec S2x1600000 32) (w : FVec Ideal S256x128 .f32)
    (hr : IsNodeIds (srcRow e)) (r : Fin 1700000) (k : Fin 128) :
    msgV x e w (ix2 (Fin.castLE (by decide : 1700000 ≤ 1703936) r) k)
      = rowAt (matProd x w) (srcV e (ix1 r)).toInt.toNat k * normV (F := Ideal) e (ix1 r) := by
  have hlt : (Fin.castLE (by decide : 1700000 ≤ 1703936) r).val < 1700000 := r.isLt
  have hrr : (⟨(Fin.castLE (by decide : 1700000 ≤ 1703936) r).val, hlt⟩ : Fin 1700000) = r := Fin.ext rfl
  have h1 : takeV (F := Ideal) (matProd x w) (padI (srcV e)) (ix2 (Fin.castLE (by decide : 1700000 ≤ 1703936) r) k)
      = rowAt (matProd x w) (srcV e (ix1 r)).toInt.toNat k := by
    refine (takeV_apply (F := Ideal) (matProd x w) (padI (srcV e)) (srcP_nodeIds e hr)
      (Fin.castLE (by decide : 1700000 ≤ 1703936) r) k).trans ?_
    refine (rowAt_eq (matProd x w) _ _ k).trans ?_
    rw [padI_left (srcV e) _ hlt, hrr]
  have h2 : shapeCast S1703936x1 (padF (normV (F := Ideal) e)) shapeCasts_S1703936_S1703936x1
        (col0 (ix2 (Fin.castLE (by decide : 1700000 ≤ 1703936) r) k))
      = normV (F := Ideal) e (ix1 r) := by
    rw [scale_at, padF_left _ _ hlt, hrr]
  exact congrArg₂ (fun a b : EReal => a * b) h1 h2

section Reference
open Cert.ReferenceIdeal.Read Cert.Proof.RefStages

/-- The reference's message on an edge row: the same row of the same product, times the same normalisation. -/
private theorem msg_ref (x : FVec Ideal S100000x256 .f32) (e : IVec S2x1600000 32) (w : FVec Ideal S256x128 .f32)
    (hr : IsNodeIds (srcRow e)) (r : Fin 1700000) (k : Fin 128) :
    val_main_v40 (F := Ideal) x e w (ix2 r k)
      = rowAt (matProd x w) (srcV e (ix1 r)).toInt.toNat k * normV (F := Ideal) e (ix1 r) := by
  have hsrc : IsNodeIds (srcV e) := withLoops_nodeIds _ hr
  have hi36 : idx_main_v36 (ix2 r (0 : Fin 1)) = ix1 r := funext fun a => match a with | ⟨0, _⟩ => rfl
  have hcol : val_main_v36 (F := Ideal) e (ix2 r (0 : Fin 1)) = srcV e (ix1 r) :=
    (val_main_v36_apply e _).trans ((congrFun (ref_wsrc (F := Ideal) e) _).trans
      ((congrFun (wrapV_of_nodeIds _ hsrc) _).trans (congrArg (srcV e) hi36)))
  have hc : 0 ≤ (val_main_v36 (F := Ideal) e (ix2 r (0 : Fin 1))).toInt
      ∧ (val_main_v36 (F := Ideal) e (ix2 r (0 : Fin 1))).toInt < 100000 := by
    rw [hcol]; exact hsrc (ix1 r)
  have h1 : val_main_v37 (F := Ideal) x e w (ix2 r k) = rowAt (matProd x w) (srcV e (ix1 r)).toInt.toNat k := by
    unfold val_main_v37
    refine (rowGather_nodeIds _ (val_main_v30 (F := Ideal) x w) (val_main_v36 (F := Ideal) e) r k hc).trans ?_
    refine (congrFun (matProd_eq x w).symm _).trans ?_
    refine (rowAt_eq (matProd x w) _ _ k).trans ?_
    rw [hcol]
  have h2 : val_main_v39 (F := Ideal) e (ix2 r k) = normV (F := Ideal) e (ix1 r) :=
    (val_main_v39_apply e (ix2 r k)).trans ((val_main_v38_apply e _).trans
      (congrArg (normV (F := Ideal) e) (funext fun a => match a with | ⟨0, _⟩ => rfl)))
  refine (val_main_v40_apply (F := Ideal) x e w (ix2 r k)).trans ?_
  show val_main_v37 (F := Ideal) x e w (ix2 r k) * val_main_v39 (F := Ideal) e (ix2 r k) = _
  rw [h1, h2]

end Reference

/-- On a real edge row the kernel's scaled message is the reference's. -/
theorem msg_left (x : FVec Ideal S100000x256 .f32) (e : IVec S2x1600000 32) (w : FVec Ideal S256x128 .f32)
    (hr : IsNodeIds (srcRow e)) (r : Fin 1700000) (k : Fin 128) :
    msgV x e w (ix2 (Fin.castLE (by decide : 1700000 ≤ 1703936) r) k)
      = Cert.ReferenceIdeal.Read.val_main_v40 (F := Ideal) x e w (ix2 r k) :=
  (msg_kernel x e w hr r k).trans (msg_ref x e w hr r k).symm

/-- On a padding row the kernel's scaled message is zero. -/
theorem msg_pad (x : FVec Ideal S100000x256 .f32) (e : IVec S2x1600000 32) (w : FVec Ideal S256x128 .f32)
    (r : Fin 1703936) (k : Fin 128) (h : 1700000 ≤ r.val) :
    msgV x e w (ix2 r k) = 0 := by
  have h2 : shapeCast S1703936x1 (padF (normV (F := Ideal) e)) shapeCasts_S1703936_S1703936x1 (col0 (ix2 r k))
      = (0 : EReal) := by
    rw [scale_at, padF_right _ r h]
  show takeV (F := Ideal) (matProd x w) (padI (srcV e)) (ix2 r k)
      * shapeCast S1703936x1 (padF (normV (F := Ideal) e)) shapeCasts_S1703936_S1703936x1 (col0 (ix2 r k)) = 0
  rw [h2, mul_zero]

end Cert.Proof.Bridge

end
-- ==== Proof.Bridge.lean ====
/- The two programs compute one function. The kernel sums 1703936 scaled messages into their destination rows, the
   reference 1700000; the extra 3936 are zero rows, which an accumulating scatter ignores, and on the common rows the
   messages and the destinations agree. Adding the bias to every row and taking the positive part is the same
   pointwise operation on both sides. -/
import proofs.«428719_j6828998001543_1_alg».proof.Proof.KernelOut
import proofs.«428719_j6828998001543_1_alg».proof.Proof.TakeFacts
import proofs.«428719_j6828998001543_1_alg».proof.Proof.RefStages
import proofs.«428719_j6828998001543_1_alg».proof.Proof.RefRead
import proofs.«428719_j6828998001543_1_alg».proof.Proof.LibRowOps
import proofs.«428719_j6828998001543_1_alg».proof.Proof.BridgeMsg
import Idealize.ShloMosaic.Lib.ValueIdx
import Idealize.ShloMosaic.Lib.Pipeline.Value
import Idealize.ShloMosaic.PureOps.Ideal.Laws

set_option maxRecDepth 16384

noncomputable section

namespace Cert.Proof.Bridge

open Idealize.ShloMosaic Idealize.ShloMosaic.ValueIdx
open Cert.KernelIdeal Cert.KernelIdeal.Gen Cert.KernelIdeal.Stages Cert.KernelIdeal.Regions

/-- The summed messages of the kernel are the reference's. -/
theorem agg_eq (x : FVec Ideal S100000x256 .f32) (e : IVec S2x1600000 32) (w : FVec Ideal S256x128 .f32)
    (hr : IsNodeIds (srcRow e)) :
    aggV (F := Ideal) (msgV x e w) (padI (dstV e)) = Cert.ReferenceIdeal.Read.val_main_v43 (F := Ideal) x e w := by
  have hE : 1700000 ≤ 1703936 := by decide
  have hK : aggV (F := Ideal) (msgV x e w) (padI (dstV e))
      = Ideal.hostScatterAdd (Cert.Lib.RowOps.rowScatterDims 100000 1703936 128
            Cert.KernelIdeal.Facts₀.scatter_S100000x128_S1703936x1_S1703936x128_1_0_0_1_wf)
          (broadcastInDim S100000x128 ![] bcast_S_S100000x128 (constant (F := Ideal) S_ .f32 0x00000000#32))
          (broadcastInDim S1703936x1 ![0] bcast_S1703936_S1703936x1_0 (padI (dstV e))) (msgV x e w) := rfl
  have hR : Cert.ReferenceIdeal.Read.val_main_v43 (F := Ideal) x e w
      = Ideal.hostScatterAdd (Cert.Lib.RowOps.rowScatterDims 100000 1700000 128
            Cert.ReferenceIdeal.Facts₀.scatter_S100000x128_S1700000x1_S1700000x128_1_0_0_1_wf)
          (broadcastInDim S100000x128 ![] bcast_S_S100000x128 (constant (F := Ideal) S_ .f32 0x00000000#32))
          (Cert.ReferenceIdeal.Read.val_main_v42 (F := Ideal) e) (Cert.ReferenceIdeal.Read.val_main_v40 (F := Ideal) x e w) := rfl
  have hidx : ∀ r : Fin 1700000,
      broadcastInDim S1703936x1 ![0] bcast_S1703936_S1703936x1_0 (padI (dstV e)) (ix2 (Fin.castLE hE r) (0 : Fin 1))
        = Cert.ReferenceIdeal.Read.val_main_v42 (F := Ideal) e (ix2 r (0 : Fin 1)) := by
    intro r
    rw [Cert.ReferenceIdeal.Read.val_main_v42_apply, Cert.Proof.RefStages.ref_dst]
    rw [broadcastInDim_apply ![0] bcast_S1703936_S1703936x1_0 (padI (dstV e)) (ix2 (Fin.castLE hE r) (0 : Fin 1))
      (ix1 (Fin.castLE hE r)) (fun a => match a with
        | ⟨0, _⟩ => by show (Fin.castLE hE r).val = if (1703936 : Nat) = 1 then 0 else (Fin.castLE hE r).val; rw [if_neg (by decide)])]
    rw [padI_left (dstV e) (Fin.castLE hE r) r.isLt]
    congr 1
    funext a
    match a with
    | ⟨0, _⟩ => rfl
  have hupd : ∀ (r : Fin 1700000) (k : Fin 128),
      msgV x e w (ix2 (Fin.castLE hE r) k) = Cert.ReferenceIdeal.Read.val_main_v40 (F := Ideal) x e w (ix2 r k) :=
    fun r k => msg_left x e w hr r k
  have hzero : ∀ (r : Fin 1703936) (k : Fin 128), 1700000 ≤ r.val → msgV x e w (ix2 r k) = 0 :=
    fun r k h => msg_pad x e w r k h
  rw [hK, hR]
  exact Cert.Lib.RowOps.rowScatterAdd_pad hE _ _ _ _ _ _ _ hidx hupd hzero

/-- Under the precondition's range fact the kernel's result is the reference's. -/
theorem kernel_eq_reference (x : FVec Ideal S100000x256 .f32) (e : IVec S2x1600000 32)
    (w : FVec Ideal S256x128 .f32) (b : FVec Ideal S128 .f32) (hr : IsNodeIds (srcRow e)) :
    kernelOut x e w b = Cert.ReferenceIdeal.Read.val_main_v47 (F := Ideal) x e w b := by
  funext i
  unfold kernelOut biasRelu
  rw [Cert.ReferenceIdeal.Read.val_main_v47_apply, Cert.ReferenceIdeal.Read.val_main_v46_apply,
    Cert.ReferenceIdeal.Read.val_main_v45_apply, Cert.ReferenceIdeal.Read.val_main_v44_apply,
    Cert.ReferenceIdeal.Read.val_main_call1_v0_apply, Cert.ReferenceIdeal.Read.val_main_call1_cst_apply]
  rw [agg_eq x e w hr]
  have hb : shapeCast S1x128 b shapeCasts_S128_S1x128 (row0 i)
      = b (Cert.ReferenceIdeal.Read.idx_main_v44 (Cert.ReferenceIdeal.Read.idx_main_v45 i)) :=
    shapeCast_apply b shapeCasts_S128_S1x128 (row0 i) _
      (by rewrite [Shape.rowMajor_val_two, Shape.rowMajor_val_one]; show (i 1).val = 0 * 128 + (i 1).val; omega)
  rw [hb]
  show max _ 0 = max _ (Ideal.ofBits .f32 0x00000000#32)
  rw [Ideal.ofBits_zero_f32]
  rfl

end Cert.Proof.Bridge

end
-- ==== Proof.lean ====
/- A graph-convolution layer, out = relu(Â · (x · W) + b) with Â the symmetrically normalised adjacency (self loops
   added), over 100000 nodes and 1600000 edges given as an integer array of (source, destination) pairs.

   The kernel's program computes it in three launches among host operations: the product h = x · W in row blocks
   (its narrowing casts are the identity over the reals); on the host the per-edge normalisation
   norm = deg^(-1/2)[src] · deg^(-1/2)[dst], padded with zeros to a whole number of blocks, and the gather of the
   rows h[src] at the zero-padded sources, a row being replaced by a fill word when its index is not a row of h; the
   scaling of every gathered row by its edge's normalisation; on the host the sum of the scaled rows into their
   destination rows; and the bias added to every row with the positive part taken. The reference does the same
   with plain array operations on the 1700000 unpadded edges, its gather clamping an index that is out of range
   where the kernel's fills.

   The two agree where the sources are node ids, 0 ≤ src < 100000, which the precondition states of row 0 of the
   edge array: then no index is wrapped, clamped or filled, both gathers read the same rows of the same product,
   the normalisations are the same function of the edge array, and the kernel's 3936 padding rows are a row of h
   times zero, which an accumulating scatter ignores. The destinations need no hypothesis: both programs scatter by
   the same rule, dropping a row whose destination is out of range. No finiteness is used.

   The frames of the kernel's two programs are the generated ones; the reference's frame is its run with the
   result dropped; nothing was rewritten between the kernel's program and its idealisation. -/
import proofs.«428719_j6828998001543_1_alg».proof.Defs
import proofs.«428719_j6828998001543_1_alg».proof.Proof.Gen.Kernel
import proofs.«428719_j6828998001543_1_alg».proof.Proof.Gen.Kernel.Frame
import proofs.«428719_j6828998001543_1_alg».proof.Proof.Gen.KernelIdeal
import proofs.«428719_j6828998001543_1_alg».proof.Proof.Gen.KernelIdeal.Frame
import proofs.«428719_j6828998001543_1_alg».proof.Proof.Gen.ReferenceIdeal
import proofs.«428719_j6828998001543_1_alg».proof.Proof.Gen.Pre_finite_inputs
import proofs.«428719_j6828998001543_1_alg».proof.Proof.KernelRun
import proofs.«428719_j6828998001543_1_alg».proof.Proof.KernelChain
import proofs.«428719_j6828998001543_1_alg».proof.Proof.RefRun
import proofs.«428719_j6828998001543_1_alg».proof.Proof.RefRead
import proofs.«428719_j6828998001543_1_alg».proof.Proof.PreRange
import proofs.«428719_j6828998001543_1_alg».proof.Proof.Bridge
import Idealize.ShloMosaic.Adequacy
import Idealize.ShloMosaic.Init

noncomputable section

namespace Cert.Proof

open Idealize.ShloMosaic Idealize.ShloMosaic.TcCoe Idealize.SL.Sem

/-- The kernel's program runs and leaves its arguments alone. -/
theorem frame_k : Cert.frame_Kernel := fun m ρ _ => Cert.Kernel.Gen.frame m ρ

/-- So does its idealisation. -/
theorem frame_ki : Cert.frame_KernelIdeal := fun m ρ _ => Cert.KernelIdeal.Gen.frame m ρ

/-- The reference runs and leaves its arguments alone: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The precondition makes row 0 of the edge array a vector of node ids. -/
theorem sources_are_node_ids (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.KernelIdeal.Stages.IsNodeIds (Cert.KernelIdeal.Stages.srcRow
      (m ((c.tc : Thread Cert.KernelIdeal.nD Cert.KernelIdeal.τ).loc Cert.KernelIdeal.main_arg1))) :=
  fun j => Cert.Proof.Range.src_in_range _ _ _ _ (hpre c) j

/-- Over the extended reals the two programs end with the same result: the kernel's is `kernelOut` of its arguments
    (the fold through @main, read), the reference's its composed term, and the two are one function where the
    sources are node ids. -/
theorem algebraic : Cert.algebraic_KernelIdeal_ReferenceIdeal := by
  intro m ρ m' ρ' hpre hagree
  refine ⟨fun c => Cert.KernelIdeal.Stages.kernelOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.Chain.W9_v44 m ρ c), (h c).2⟩)
      (Cert.KernelIdeal.RunValue.run_value (F := Ideal) m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v47_eq, (hagree c).1, (hagree c).2.1, (hagree c).2.2.1, (hagree c).2.2.2]
    exact (Cert.Proof.Bridge.kernel_eq_reference _ _ _ _ (sources_are_node_ids m hpre c)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
